-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8x16x8192 : Shape := ⟨3, ![8, 16, 8192]⟩
abbrev S16x4096 : Shape := ⟨2, ![16, 4096]⟩
abbrev S8192x8192 : Shape := ⟨2, ![8192, 8192]⟩
abbrev S4096x8192 : Shape := ⟨2, ![4096, 8192]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8x16x8192 : S_.BroadcastsInDim S8x16x8192 (![] : Fin 0 → Fin S8x16x8192.rank)
  reducesTo_S8x16x8192_S_d0_1_2 : S8x16x8192.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg4 : FVec F S8192x8192 .f32) (main_arg5 : FVec F S4096x8192 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  main_v28

def fn {F : FTy → Type} [FloatOps F] (main_arg0 : FVec F S16x8192 .f32) (main_arg1 : FVec F S16x8192 .f32) (main_arg2 : FVec F S8x16x8192 .f32) (main_arg3 : FVec F S16x4096 .f32) (main_arg4 : FVec F S8192x8192 .f32) (main_arg5 : FVec F S4096x8192 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S16x8192 .f32 := Host.absf main_arg1
  let main_cst_0 : FVec F S_ .f32 := constant S_ .f32 0x7F800000#32
  let main_v5 : FVec F S16x8192 .f32 := broadcastInDim S16x8192 ![] bcast_S_S16x8192 main_cst_0
  let main_v6 : IVec S16x8192 1 := cmpf .olt main_v4 main_v5
  let main_c_1 : IVec S_ 1 := constantI S_ 1 1#1
  let main_v7 : IVec S_ 1 := (fun x v => Host.reduce IntOp.andi x v reducesTo_S16x8192_S_d0_1 h_S_) main_v6 main_c_1
  let main_v8 : IVec S_ 1 := andi main_v3 main_v7
  let main_v9 : FVec F S8x16x8192 .f32 := Host.absf main_arg2
  let main_cst_2 : FVec F S_ .f32 := constant S_ .f32 0x7F800000#32
  let main_v10 : FVec F S8x16x8192 .f32 := broadcastInDim S8x16x8192 ![] bcast_S_S8x16x8192 main_cst_2
  let main_v11 : IVec S8x16x8192 1 := cmpf .olt main_v9 main_v10
  let main_c_3 : IVec S_ 1 := constantI S_ 1 1#1
  let main_v12 : IVec S_ 1 := (fun x v => Host.reduce IntOp.andi x v reducesTo_S8x16x8192_S_d0_1_2 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_v13 main_v16
-- ==== Kernel.lean ====
abbrev S16x8192 : Shape := ⟨2, ![16, 8192]⟩
abbrev S8x16x8192 : Shape := ⟨3, ![8, 16, 8192]⟩
abbrev S16x4096 : Shape := ⟨2, ![16, 4096]⟩
abbrev S8192x8192 : Shape := ⟨2, ![8192, 8192]⟩
abbrev S4096x8192 : Shape := ⟨2, ![4096, 8192]⟩
abbrev S1x16x8192 : Shape := ⟨3, ![1, 16, 8192]⟩
abbrev S16x1024 : Shape := ⟨2, ![16, 1024]⟩
abbrev S1024x2048 : Shape := ⟨2, ![1024, 2048]⟩
abbrev S16x2048 : Shape := ⟨2, ![16, 2048]⟩
abbrev S8x16x2048 : Shape := ⟨3, ![8, 16, 2048]⟩
abbrev S1x16x2048 : Shape := ⟨3, ![1, 16, 2048]⟩
abbrev S7x16x2048 : Shape := ⟨3, ![7, 16, 2048]⟩

abbrev nBuf : Space → Nat
  | .hbm => 14
  | .vmem => 32
  | .smem => 0
  | _ => 0

abbrev bufTy : (tb : Table) → Fin (tcTables nBuf tb) → BufTy
  | .hbm, ⟨0, _⟩ => ⟨S16x8192, .f32⟩
  | .hbm, ⟨1, _⟩ => ⟨S16x8192, .f32⟩
  | .hbm, ⟨2, _⟩ => ⟨S8x16x8192, .f32⟩
  | .hbm, ⟨3, _⟩ => ⟨S16x4096, .f32⟩
  | .hbm, ⟨4, _⟩ => ⟨S8192x8192, .f32⟩
  | .hbm, ⟨5, _⟩ => ⟨S4096x8192, .f32⟩
  | .hbm, ⟨6, _⟩ => ⟨S1x16x8192, .f32⟩
  | .hbm, ⟨7, _⟩ => ⟨S16x8192, .f32⟩
  | .hbm, ⟨8, _⟩ => ⟨S16x8192, .f32⟩
  | .hbm, ⟨9, _⟩ => ⟨S16x8192, .f32⟩
  | .hbm, ⟨10, _⟩ => ⟨S16x8192, .f32⟩
  | .hbm, ⟨11, _⟩ => ⟨S16x8192, .f32⟩
  | .hbm, ⟨12, _⟩ => ⟨S16x8192, .f32⟩
  | .hbm, ⟨13, _⟩ => ⟨S8x16x8192, .f32⟩
  | .local _ .vmem, ⟨0, _⟩ => ⟨S16x1024, .f32⟩
  | .local _ .vmem, ⟨1, _⟩ => ⟨S16x1024, .f32⟩
  | .local _ .vmem, ⟨2, _⟩ => ⟨S1024x2048, .f32⟩
  | .local _ .vmem, ⟨3, _⟩ => ⟨S1024x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | .local _ .vmem, ⟨9, _⟩ => ⟨S16x1024, .f32⟩
  | .local _ .vmem, ⟨10, _⟩ => ⟨S16x1024, .f32⟩
  | .local _ .vmem, ⟨11, _⟩ => ⟨S1024x2048, .f32⟩
  | .local _ .vmem, ⟨12, _⟩ => ⟨S1024x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | .local _ .vmem, ⟨16, _⟩ => ⟨S16x2048, .f32⟩
  | .local _ .vmem, ⟨17, _⟩ => ⟨S16x2048, .f32⟩
  | .local _ .vmem, ⟨18, _⟩ => ⟨S16x2048, .f32⟩
  | .local _ .vmem, ⟨19, _⟩ => ⟨S16x2048, .f32⟩
  | .local _ .vmem, ⟨20, _⟩ => ⟨S16x2048, .f32⟩
  | .local _ .vmem, ⟨21, _⟩ => ⟨S16x2048, .f32⟩
  | .local _ .vmem, ⟨22, _⟩ => ⟨S8x16x2048, .f32⟩
  | .local _ .vmem, ⟨23, _⟩ => ⟨S8x16x2048, .f32⟩
  | .local _ .vmem, ⟨24, _⟩ => ⟨S16x2048, .f32⟩
  | .local _ .vmem, ⟨25, _⟩ => ⟨S16x2048, .f32⟩
  | .local _ .vmem, ⟨26, _⟩ => ⟨S16x2048, .f32⟩
  | .local _ .vmem, ⟨27, _⟩ => ⟨S16x2048, .f32⟩
  | .local _ .vmem, ⟨28, _⟩ => ⟨S16x2048, .f32⟩
  | .local _ .vmem, ⟨29, _⟩ => ⟨S16x2048, .f32⟩
  | .local _ .vmem, ⟨30, _⟩ => ⟨S8x16x2048, .f32⟩
  | .local _ .vmem, ⟨31, _⟩ => ⟨S8x16x2048, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S16x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S16x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage2_0 : Fin 2 → Memref sig .tc .vmem S16x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x16x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S16x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S16x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S16x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x16x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S8x16x8192_S1x16x8192_7_0_0 : S8x16x8192.Slices ![7, 0, 0] S1x16x8192
  shapeCasts_S1x16x8192_S16x8192 : S1x16x8192.ShapeCasts S16x8192
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  natLt_1_32 : 1 < 32
  inb_S8x16x2048_S1x16x2048_0_0_0 : ∀ a, (![0, 0, 0] : Fin 3 → Nat) a + S1x16x2048.size a ≤ S8x16x2048.size a
  h_S1x16x2048 : 0 < S1x16x2048.numel
  shapeCasts_S1x16x2048_S16x2048 : S1x16x2048.ShapeCasts S16x2048
  shapeCasts_S16x2048_S1x16x2048 : S16x2048.ShapeCasts S1x16x2048
  inb_S8x16x2048_S7x16x2048_0_0_0 : ∀ a, (![0, 0, 0] : Fin 3 → Nat) a + S7x16x2048.size a ≤ S8x16x2048.size a
  h_S7x16x2048 : 0 < S7x16x2048.numel
  inb_S8x16x2048_S7x16x2048_1_0_0 : ∀ a, (![1, 0, 0] : Fin 3 → Nat) a + S7x16x2048.size a ≤ S8x16x2048.size a
  dot_S16x1024_S1024x2048_S16x2048_1_0_0_1_n_n_wf : DotDims.WF S16x1024 S1024x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S16x8192.size a
  hwx0_0 : ∀ i : grid0.Coords, EltTy.bits .f32 = 32 ∨ (Rect.block (s := S16x8192) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x8192.size a
  hwx0_2 : ∀ i : grid0.Coords, EltTy.bits .f32 = 32 ∨ (Rect.block (s := S16x8192) S16x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x2048.size a ≤ S16x8192.size a
  hwx1_0 : ∀ i : grid1.Coords, EltTy.bits .f32 = 32 ∨ (Rect.block (s := S16x8192) S16x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1024.size a ≤ S16x4096.size a
  hwx1_1 : ∀ i : grid1.Coords, EltTy.bits .f32 = 32 ∨ (Rect.block (s := S16x4096) S16x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S4096x8192.size a
  hwx1_2 : ∀ i : grid1.Coords, EltTy.bits .f32 = 32 ∨ (Rect.block (s := S4096x8192) S1024x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x2048.size a ≤ S16x8192.size a
  hwx1_3 : ∀ i : grid1.Coords, EltTy.bits .f32 = 32 ∨ (Rect.block (s := S16x8192) S16x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x2048.size a ≤ S16x8192.size a
  hwx2_0 : ∀ i : grid2.Coords, EltTy.bits .f32 = 32 ∨ (Rect.block (s := S16x8192) S16x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x2048.size a ≤ S16x8192.size a
  hwx2_1 : ∀ i : grid2.Coords, EltTy.bits .f32 = 32 ∨ (Rect.block (s := S16x8192) S16x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x2048.size a ≤ S16x8192.size a
  hwx2_2 : ∀ i : grid2.Coords, EltTy.bits .f32 = 32 ∨ (Rect.block (s := S16x8192) S16x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x16x2048.size a ≤ S8x16x8192.size a
  hwx2_3 : ∀ i : grid2.Coords, EltTy.bits .f32 = 32 ∨ (Rect.block (s := S8x16x8192) S8x16x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16x2048.size a ≤ S16x8192.size a
  hwx2_4 : ∀ i : grid2.Coords, EltTy.bits .f32 = 32 ∨ (Rect.block (s := S16x8192) S16x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S16x2048.size a ≤ S16x8192.size a
  hwx2_5 : ∀ i : grid2.Coords, EltTy.bits .f32 = 32 ∨ (Rect.block (s := S16x8192) S16x2048.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S16x2048.size a ≤ S16x8192.size a
  hwx2_6 : ∀ i : grid2.Coords, EltTy.bits .f32 = 32 ∨ (Rect.block (s := S16x8192) S16x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x16x2048.size a ≤ S8x16x8192.size a
  hwx2_7 : ∀ i : grid2.Coords, EltTy.bits .f32 = 32 ∨ (Rect.block (s := S8x16x8192) S8x16x2048.size (cc2_transform_7 i) (hinb2_7 i)).WholeWords (EltTy.packing .f32)

variable [Facts₀]

def dot_S16x1024_S1024x2048_S16x2048_1_0_0_1_n_n : DotDims S16x1024 S1024x2048 S16x2048 where
  lhsContracting := [1]
  rhsContracting := [0]
  lhsNonContracting := [0]
  rhsNonContracting := [1]
  lhsBatch := []
  rhsBatch := []
  wf := dot_S16x1024_S1024x2048_S16x2048_1_0_0_1_n_n_wf

abbrev win0_0 : Pipeline.Window sig grid0 :=
  Pipeline.Window.ofSpec (Memref.whole main_v1) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S16x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S16x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg0) S16x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S16x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S16x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S8x16x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4_0) S16x2048.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v4_1) S16x2048.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v4_2) S16x2048.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v4_3) S8x16x2048.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where
  halias1_3 : Pipeline.Aliased win1 0 3

variable [Facts]
-- ==== ReferenceIdeal.lean ====
abbrev S16x8192 : Shape := ⟨2, ![16, 8192]⟩
abbrev S8x16x8192 : Shape := ⟨3, ![8, 16, 8192]⟩
abbrev S16x4096 : Shape := ⟨2, ![16, 4096]⟩
abbrev S8192x8192 : Shape := ⟨2, ![8192, 8192]⟩
abbrev S4096x8192 : Shape := ⟨2, ![4096, 8192]⟩
abbrev S_ : Shape := ⟨0, ![]⟩
abbrev S1x16x8192 : Shape := ⟨3, ![1, 16, 8192]⟩
abbrev S7x16x8192 : Shape := ⟨3, ![7, 16, 8192]⟩

abbrev nBuf : Space → Nat
  | .hbm => 37
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S16x8192, .f32⟩
  | .hbm, ⟨2, _⟩ => ⟨S8x16x8192, .f32⟩
  | .hbm, ⟨3, _⟩ => ⟨S16x4096, .f32⟩
  | .hbm, ⟨4, _⟩ => ⟨S8192x8192, .f32⟩
  | .hbm, ⟨5, _⟩ => ⟨S4096x8192, .f32⟩
  | .hbm, ⟨6, _⟩ => ⟨S_, .f32⟩
  | .hbm, ⟨7, _⟩ => ⟨S16x8192, .f32⟩
  | .hbm, ⟨8, _⟩ => ⟨S16x8192, .f32⟩
  | .hbm, ⟨9, _⟩ => ⟨S_, .f32⟩
  | .hbm, ⟨10, _⟩ => ⟨S16x8192, .f32⟩
  | .hbm, ⟨11, _⟩ => ⟨S16x8192, .f32⟩
  | .hbm, ⟨12, _⟩ => ⟨S16x8192, .i1⟩
  | .hbm, ⟨13, _⟩ => ⟨S16x8192, .f32⟩
  | .hbm, ⟨14, _⟩ => ⟨S_, .f32⟩
  | .hbm, ⟨15, _⟩ => ⟨S16x8192, .f32⟩
  | .hbm, ⟨16, _⟩ => ⟨S16x8192, .f32⟩
  | .hbm, ⟨17, _⟩ => ⟨S16x8192, .f32⟩
  | .hbm, ⟨18, _⟩ => ⟨S1x16x8192, .f32⟩
  | .hbm, ⟨19, _⟩ => ⟨S16x8192, .f32⟩
  | .hbm, ⟨20, _⟩ => ⟨S16x8192, .f32⟩
  | .hbm, ⟨21, _⟩ => ⟨S16x8192, .f32⟩
  | .hbm, ⟨22, _⟩ => ⟨S16x8192, .f32⟩
  | .hbm, ⟨23, _⟩ => ⟨S_, .f32⟩
  | .hbm, ⟨24, _⟩ => ⟨S16x8192, .f32⟩
  | .hbm, ⟨25, _⟩ => ⟨S16x8192, .f32⟩
  | .hbm, ⟨26, _⟩ => ⟨S_, .f32⟩
  | .hbm, ⟨27, _⟩ => ⟨S16x8192, .f32⟩
  | .hbm, ⟨28, _⟩ => ⟨S16x8192, .f32⟩
  | .hbm, ⟨29, _⟩ => ⟨S16x8192, .f32⟩
  | .hbm, ⟨30, _⟩ => ⟨S_, .f32⟩
  | .hbm, ⟨31, _⟩ => ⟨S16x8192, .f32⟩
  | .hbm, ⟨32, _⟩ => ⟨S16x8192, .f32⟩
  | .hbm, ⟨33, _⟩ => ⟨S16x8192, .f32⟩
  | .hbm, ⟨34, _⟩ => ⟨S1x16x8192, .f32⟩
  | .hbm, ⟨35, _⟩ => ⟨S7x16x8192, .f32⟩
  | .hbm, ⟨36, _⟩ => ⟨S8x16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S16x8192 : S_.BroadcastsInDim S16x8192 (![] : Fin 0 → Fin S16x8192.rank)
  slices_S8x16x8192_S1x16x8192_7_0_0 : S8x16x8192.Slices ![7, 0, 0] S1x16x8192
  shapeCasts_S1x16x8192_S16x8192 : S1x16x8192.ShapeCasts S16x8192
  bcast_S16x8192_S1x16x8192_1_2 : S16x8192.BroadcastsInDim S1x16x8192 (![1, 2] : Fin 2 → Fin S1x16x8192.rank)
  slices_S8x16x8192_S7x16x8192_0_0_0 : S8x16x8192.Slices ![0, 0, 0] S7x16x8192
  concatenates_S1x16x8192_S7x16x8192_S8x16x8192_d0 : Shape.Concatenates [S1x16x8192, S7x16x8192] S8x16x8192 0
  dot_S16x8192_S8192x8192_S16x8192_1_0_0_1_n_n_wf : DotDims.WF S16x8192 S8192x8192 S16x8192 [1] [0] [0] [1] [] []
  dot_S16x4096_S4096x8192_S16x8192_1_0_0_1_n_n_wf : DotDims.WF S16x4096 S4096x8192 S16x8192 [1] [0] [0] [1] [] []

variable [Facts₀]

def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf
def dot_S16x4096_S4096x8192_S16x8192_1_0_0_1_n_n : DotDims S16x4096 S4096x8192 S16x8192 where
  lhsContracting := [1]
  rhsContracting := [0]
  lhsNonContracting := [0]
  rhsNonContracting := [1]
  lhsBatch := []
  rhsBatch := []
  wf := dot_S16x4096_S4096x8192_S16x8192_1_0_0_1_n_n_wf

class Facts : Prop extends Facts₀ where

variable [Facts]
-- ==== Proof.K.R0Runs.lean ====
/-
  Region 0: the first blocked product. The grid is 4 × 8; the point t has column block n = t / 8 and reduction
  step k = t % 8. A scratch accumulator of one output block is zeroed at k = 0, receives the product of the
  k-th 16 × 1024 block of the left operand with the (k, n) block of the right operand at every step, and is
  copied into the output block at k = 7; at the other steps the output block's buffer is left alone.
  This module runs the body once per control case — A: k = 0, B: 0 < k < 7, C: k = 7 — and records what each
  case leaves in the accumulator and in the output buffer.
-/
import proofs.«112072_j23527830848088_1_alg».proof.Proof.Gen.Kernel.Launch
import proofs.«112072_j23527830848088_1_alg».proof.Proof.Gen.Kernel.Skeleton
import proofs.«112072_j23527830848088_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's buffer holds its block at every point, for any proof data over these arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first reduction step" as the body computes it from the coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last reduction step". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last step the output block's buffer is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is stored into. -/
theorem liveAt0_2 : ∀ t : Fin cfg0.N, cond0_1 (grid0.coords t) → cfg0.idle 2 (grid0.coords t) = false := by decide +kernel

/-! ## The memrefs the body is called with -/

/-- A staging buffer of the output window, through which its contents are stated. -/
abbrev VO0_2 : View sig .tc .vmem S16x2048 .f32 := (Memref.whole cc0_stg2_0 : Memref sig .tc .vmem S16x2048 .f32).view
abbrev ms0_0 (t : Fin cfg0.N) : Memref sig .tc .vmem S16x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x2048 .f32 := win0_2.stage (cfg0.slots t 2)
abbrev hs0_2 (t : Fin cfg0.N) : (ms0_2 t).IsWhole := hstage0_2 ((cfg0.slots t 2).cast nbuf0_2)
/-- The accumulator. -/
abbrev scM0_0 : Memref sig .tc .vmem S16x2048 .f32 := Memref.whole cc0_scratch0
abbrev VS0_0 : View sig .tc .vmem S16x2048 .f32 := scM0_0.view

/-- The region's invariant before any point has named the accumulator: the accumulator at some contents, the other
    scoped buffers untouched, the generator register at some state. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body, case by case -/

set_option maxHeartbeats 1000000 in
/-- CASE A (first step, not the last). The accumulator is found at anything, zeroed, and then receives the first
    product; the output buffer is handed back untouched. The pieces the accumulator ends with are found by the run. -/
noncomputable def kernelRun0_A (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : cond0_0 i) (hc1 : ¬cond0_1 i)
    (x0 : Vec F S16x1024 .f32) (x1 : Vec F S1024x2048 .f32) :
    Σ' (L2 : List (View.Piece (Elt F) S16x2048 .f32)), { LS0 : List (View.Piece (Elt F) S16x2048 .f32) //
      ∀ (xi2 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_int_kernel i arg2 harg2 arg3 harg3 arg4 harg4 arg5 harg5) K } := by
  refine ⟨[], ?_, fun xi2 E K => ?run⟩
  case run =>
    simp only [cc0__mm_int_kernel_eq_skeleton]; unfold cc0__mm_int_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (a middle step). The accumulator is found at what the step before left and receives one more product;
    the output buffer is handed back untouched. -/
noncomputable def kernelRun0_B (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : ¬cond0_1 i)
    (x0 : Vec F S16x1024 .f32) (x1 : Vec F S1024x2048 .f32) (xs0 : Vec F S16x2048 .f32) :
    Σ' (L2 : List (View.Piece (Elt F) S16x2048 .f32)), { LS0 : List (View.Piece (Elt F) S16x2048 .f32) //
      ∀ (xi2 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_int_kernel i arg2 harg2 arg3 harg3 arg4 harg4 arg5 harg5) K } := by
  refine ⟨[], ?_, fun xi2 E K => ?run⟩
  case run =>
    simp only [cc0__mm_int_kernel_eq_skeleton]; unfold cc0__mm_int_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (the last step). The accumulator receives the last product and is copied into the output buffer, which
    is found at anything. -/
noncomputable def kernelRun0_C (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) :
    Σ' (L2 : List (View.Piece (Elt F) S16x2048 .f32)), { LS0 : List (View.Piece (Elt F) S16x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm_int_kernel i arg2 harg2 arg3 harg3 arg4 harg4 arg5 harg5) K } := by
  refine ⟨?_, ?_, fun E K => ?run⟩
  case run =>
    simp only [cc0__mm_int_kernel_eq_skeleton]; unfold cc0__mm_int_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.R0.lean ====
/-
  Region 0, continued: what the accumulator and the output block's buffer hold after every point, by recursion on
  the point (the accumulator at step k > 0 is built over what step k − 1 left; at k = 0 it starts afresh), the
  region's proof data over these contents, and the body's obligation at every point.
-/
import proofs.«112072_j23527830848088_1_alg».proof.Proof.K.R0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover0_A (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : cond0_0 i) (hc1 : ¬cond0_1 i)
    (x0 : Vec F S16x1024 .f32) (x1 : Vec F S1024x2048 .f32) (y : S16x2048.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S16x2048.size (by sl_kernel_rfl) y

/-- The accumulator after a first step. -/
def sout0_A (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : cond0_0 i) (hc1 : ¬cond0_1 i)
    (x0 : Vec F S16x1024 .f32) (x1 : Vec F S1024x2048 .f32) : Vec F S16x2048 .f32 :=
  VS0_0.read (Elt F) (VS0_0.writes (Elt F) VS0_0.junk (kernelRun0_A c i arg2 harg2 arg3 harg3 arg4 harg4 arg5 harg5 hc0 hc1 x0 x1).2.1)

/-- The output buffer is not stored into at a first step: a placeholder nothing reads. -/
def out0_A_2 (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : cond0_0 i) (hc1 : ¬cond0_1 i)
    (x0 : Vec F S16x1024 .f32) (x1 : Vec F S1024x2048 .f32) : Vec F S16x2048 .f32 :=
  VO0_2.read (Elt F) (VO0_2.writes (Elt F) VO0_2.junk (kernelRun0_A c i arg2 harg2 arg3 harg3 arg4 harg4 arg5 harg5 hc0 hc1 x0 x1).1)

theorem scover0_B (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : ¬cond0_1 i)
    (x0 : Vec F S16x1024 .f32) (x1 : Vec F S1024x2048 .f32) (xs0 : Vec F S16x2048 .f32) (y : S16x2048.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S16x2048.size (by sl_kernel_rfl) y

/-- The accumulator after a middle step, over what the step before left. -/
def sout0_B (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : ¬cond0_1 i)
    (x0 : Vec F S16x1024 .f32) (x1 : Vec F S1024x2048 .f32) (xs0 : Vec F S16x2048 .f32) : Vec F S16x2048 .f32 :=
  VS0_0.read (Elt F) (VS0_0.writes (Elt F) VS0_0.junk (kernelRun0_B c i arg2 harg2 arg3 harg3 arg4 harg4 arg5 harg5 hc0 hc1 x0 x1 xs0).2.1)

def out0_B_2 (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : ¬cond0_1 i)
    (x0 : Vec F S16x1024 .f32) (x1 : Vec F S1024x2048 .f32) (xs0 : Vec F S16x2048 .f32) : Vec F S16x2048 .f32 :=
  VO0_2.read (Elt F) (VO0_2.writes (Elt F) VO0_2.junk (kernelRun0_B c i arg2 harg2 arg3 harg3 arg4 harg4 arg5 harg5 hc0 hc1 x0 x1 xs0).1)

theorem scover0_C (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) (y : S16x2048.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S16x2048.size (by sl_kernel_rfl) y

/-- The accumulator after the last step. -/
def sout0_C (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) : Vec F S16x2048 .f32 :=
  VS0_0.read (Elt F) (VS0_0.writes (Elt F) VS0_0.junk (kernelRun0_C c i arg2 harg2 arg3 harg3 arg4 harg4 arg5 harg5 hc0 hc1 x0 x1 xs0).2.1)

theorem cover0_C_2 (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) (y : S16x2048.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S16x2048.size (by sl_kernel_rfl) y

/-- The output buffer after the last step. -/
def out0_C_2 (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) : Vec F S16x2048 .f32 :=
  VO0_2.read (Elt F) (VO0_2.writes (Elt F) VO0_2.junk (kernelRun0_C c i arg2 harg2 arg3 harg3 arg4 harg4 arg5 harg5 hc0 hc1 x0 x1 xs0).1)

/-! ## Point by point -/

/-- What the output block's buffer and the accumulator hold after the body at position `n` (in that order): the case
    the position's reduction step selects, run on the position's blocks, over what position `n − 1` left in the
    accumulator unless a new column block begins. -/
def outsAt0 (c : Dev nD) : (n : ℕ) → n < cfg0.N → Vec F S16x2048 .f32 × Vec F S16x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first step. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle step: over what the point before left in the accumulator. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last step. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator is at anything; afterwards
    it is at what the point before left; the other scoped buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body each operand's buffer at its block, the output block's buffer
    and the accumulator as `outsAt0` says; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by the case its reduction step selects. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 32 := lt_of_lt_of_eq t.isLt (show cfg0.N = 32 from N_0)
  by_cases h0 : t.val % 8 = 0
  · by_cases h1 : t.val % 8 = 7
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

/-- The body's obligation at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.Kernel.Fr

end
-- ==== Proof.K.R1.lean ====
/-
  Region 1: the second blocked product, continuing an earlier one. The grid is 4 × 4; the point t has column block
  n = t / 4 and reduction step k = t % 4. A scratch accumulator of one output block is set, at k = 0, to the (0, n)
  block of the array the earlier product wrote; at every step it receives the product of the k-th 16 × 1024 block of
  the left operand with the (k, n) block of the right operand; at k = 3 it is copied into the output block, whose
  buffer is left alone at the other steps.
  This module is the region's half of the frame argument at given entry contents: the body run once per control
  case — A: k = 0, B: k = 1, 2, C: k = 3 —, what each case leaves in the accumulator and in the output buffer, those
  contents point by point along the grid, the proof data of the pipeline over them, and the body obligation.
-/
import proofs.«112072_j23527830848088_1_alg».proof.Proof.Gen.Kernel.Launch
import proofs.«112072_j23527830848088_1_alg».proof.Proof.Gen.Kernel.Skeleton
import proofs.«112072_j23527830848088_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter a region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried block's buffer holds its block at every point — its block index does not read the reduction step, so
    between two fetches the block has not moved —, for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the left operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "This is the first reduction step", as the body computes it from the coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last reduction step". -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A the output block's buffer is idle and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same at the points of case B. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points of case C it is stored into. -/
theorem liveAt1_3_C : ∀ t : Fin cfg1.N, ¬cond1_0 (grid1.coords t) → cond1_1 (grid1.coords t) → cfg1.idle 3 (grid1.coords t) = false := by decide +kernel

/-! ## The memrefs the body is called with -/

/-- A staging buffer of the output window, through which its contents are stated (any would do: what a covering list
    of writes reads back does not depend on the view). -/
abbrev VO1_3 : View sig .tc .vmem S16x2048 .f32 := (Memref.whole cc1_stg3_0 : Memref sig .tc .vmem S16x2048 .f32).view
/-- Each window's current staging memref at point `t`, and its wholeness. -/
abbrev ms1_0 (t : Fin cfg1.N) : Memref sig .tc .vmem S16x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x2048 .f32 := win1_3.stage (cfg1.slots t 3)
abbrev hs1_3 (t : Fin cfg1.N) : (ms1_3 t).IsWhole := hstage1_3 ((cfg1.slots t 3).cast nbuf1_3)
/-- The accumulator: a whole scoped buffer of the region's own, passed beside the windows. -/
abbrev scM1_0 : Memref sig .tc .vmem S16x2048 .f32 := Memref.whole cc1_scratch0
abbrev VS1_0 : View sig .tc .vmem S16x2048 .f32 := scM1_0.view

/-- The scoped buffers that are no staging buffer of this region, split at the accumulator: the accumulator at some
    contents, and every other one unopened. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The region's invariant before any point has named the accumulator: the accumulator at some contents, the other
    scoped buffers untouched, the generator register at some state. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body, case by case -/

set_option maxHeartbeats 1000000 in
/-- CASE A (first reduction step, not the last). The carried block is loaded from its window, the accumulator — found
    at anything — is set to it and then receives the first product; the output buffer is handed back untouched. The
    pieces the accumulator ends with are part of the result. -/
noncomputable def kernelRun1_A (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : cond1_0 i) (hc1 : ¬cond1_1 i)
    (x0 : Vec F S16x2048 .f32) (x1 : Vec F S16x1024 .f32) (x2 : Vec F S1024x2048 .f32) :
    Σ' (L3 : List (View.Piece (Elt F) S16x2048 .f32)), { LS0 : List (View.Piece (Elt F) S16x2048 .f32) //
      ∀ (xi3 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_ext_kernel i arg2 harg2 arg3 harg3 arg4 harg4 arg5 harg5 arg6 harg6) K } := by
  refine ⟨[], ?_, fun xi3 E K => ?run⟩
  case run =>
    simp only [cc1__mm_ext_kernel_eq_skeleton]; unfold cc1__mm_ext_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (a middle step). The accumulator is found at what the step before left and receives one more product; the
    output buffer is handed back untouched. -/
noncomputable def kernelRun1_B (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : ¬cond1_1 i)
    (x0 : Vec F S16x2048 .f32) (x1 : Vec F S16x1024 .f32) (x2 : Vec F S1024x2048 .f32) (xs0 : Vec F S16x2048 .f32) :
    Σ' (L3 : List (View.Piece (Elt F) S16x2048 .f32)), { LS0 : List (View.Piece (Elt F) S16x2048 .f32) //
      ∀ (xi3 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_ext_kernel i arg2 harg2 arg3 harg3 arg4 harg4 arg5 harg5 arg6 harg6) K } := by
  refine ⟨[], ?_, fun xi3 E K => ?run⟩
  case run =>
    simp only [cc1__mm_ext_kernel_eq_skeleton]; unfold cc1__mm_ext_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (the last step). The accumulator receives the last product and is copied into the output buffer, which is
    found at anything. -/
noncomputable def kernelRun1_C (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) :
    Σ' (L3 : List (View.Piece (Elt F) S16x2048 .f32)), { LS0 : List (View.Piece (Elt F) S16x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__mm_ext_kernel i arg2 harg2 arg3 harg3 arg4 harg4 arg5 harg5 arg6 harg6) K } := by
  refine ⟨?_, ?_, fun E K => ?run⟩
  case run =>
    simp only [cc1__mm_ext_kernel_eq_skeleton]; unfold cc1__mm_ext_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves -/

/-- Case A stores nothing into the output buffer (the window is idle at its points and not written back there): no
    pieces — a placeholder that nothing consults. -/
def out1_A_3 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : cond1_0 i) (hc1 : ¬cond1_1 i)
    (x0 : Vec F S16x2048 .f32) (x1 : Vec F S16x1024 .f32) (x2 : Vec F S1024x2048 .f32) : Vec F S16x2048 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator tile it (two whole-block stores), so they cover it. -/
theorem scover1_A_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : cond1_0 i) (hc1 : ¬cond1_1 i)
    (x0 : Vec F S16x2048 .f32) (x1 : Vec F S16x1024 .f32) (x2 : Vec F S1024x2048 .f32) (y : S16x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S16x2048.size (by sl_kernel_rfl) y

/-- What case A leaves in the accumulator: its pieces read back. -/
def sout1_A_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : cond1_0 i) (hc1 : ¬cond1_1 i)
    (x0 : Vec F S16x2048 .f32) (x1 : Vec F S16x1024 .f32) (x2 : Vec F S1024x2048 .f32) : Vec F S16x2048 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output buffer (the window is idle at its points and not written back there): no
    pieces — a placeholder that nothing consults. -/
def out1_B_3 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : ¬cond1_1 i)
    (x0 : Vec F S16x2048 .f32) (x1 : Vec F S16x1024 .f32) (x2 : Vec F S1024x2048 .f32) (xs0 : Vec F S16x2048 .f32) : Vec F S16x2048 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the accumulator tile it (one whole-block store), so they cover it. -/
theorem scover1_B_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : ¬cond1_1 i)
    (x0 : Vec F S16x2048 .f32) (x1 : Vec F S16x1024 .f32) (x2 : Vec F S1024x2048 .f32) (xs0 : Vec F S16x2048 .f32) (y : S16x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S16x2048.size (by sl_kernel_rfl) y

/-- What case B leaves in the accumulator: its pieces read back. -/
def sout1_B_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : ¬cond1_1 i)
    (x0 : Vec F S16x2048 .f32) (x1 : Vec F S16x1024 .f32) (x2 : Vec F S1024x2048 .f32) (xs0 : Vec F S16x2048 .f32) : Vec F S16x2048 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output buffer is of the whole block, so its pieces cover it. -/
theorem cover1_C_3 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) (y : S16x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S16x2048.size (by sl_kernel_rfl) y

/-- What case C leaves in the output buffer: its pieces read back. -/
def out1_C_3 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) : Vec F S16x2048 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the accumulator tile it (one whole-block store), so they cover it. -/
theorem scover1_C_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) (y : S16x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S16x2048.size (by sl_kernel_rfl) y

/-- What case C leaves in the accumulator: its pieces read back. -/
def sout1_C_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) : Vec F S16x2048 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output buffer and the accumulator hold after each point -/

/-- THE ACCUMULATION. What the output window's staging buffer and the accumulator hold after the body at position
    `n` (a pair: the output buffer, then the accumulator): the case the closed forms select at `n`, run at the point's
    memrefs and input blocks; in cases B and C over what the accumulator held after position `n - 1`; in case A — the
    first step of a column block, at position 0 or later — over nothing earlier. Both conditions at once is no case. -/
def outsAt1 (c : Dev nD) : (n : ℕ) → n < cfg1.N → Vec F S16x2048 .f32 × Vec F S16x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left in the accumulator. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant along the grid -/

/-- The invariant before position `n`: before the first point, every scoped buffer that is no staging buffer of this
    region at some contents and the generator register at some state; afterwards the same with the accumulator at what
    the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which case the point is in; the
    invariant hands the body the accumulator — at what the point before left, or at anything at the very first point
    (and in case A its contents are not used) —, the other scoped buffers and the generator register pass through
    untouched, and the accumulator is taken back at this point's contents, its pieces covering it. In cases A and B
    the output buffer is handed back as found; in case C it is taken back at the copied accumulator. The core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry form back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Fr

end
-- ==== Proof.K.R2.lean ====
/-
  Region 2: the pointwise update. The grid has four points, one per block of 2048 columns; at each the body reads the
  blocks of the potential, the adaptation, the input current and the eight rows of the delay line, and writes the
  blocks of the spikes, the new potential, the new adaptation, and the new delay line — the spikes in row 0, the old
  rows 0 … 6 in rows 1 … 7. Nothing is carried from point to point and every block is written back at every point.
  This module is the region's half of the frame argument at given entry contents: what the body leaves in each
  output block's buffer as a function of the input blocks, the body's run, the proof data and the body obligation.
-/
import proofs.«112072_j23527830848088_1_alg».proof.Proof.Gen.Kernel.Launch
import proofs.«112072_j23527830848088_1_alg».proof.Proof.Gen.Kernel.Skeleton
import proofs.«112072_j23527830848088_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter a region's half is stated at
variable (V : (c : Dev nD) → (b : Ref sig .tc) → Buf (Elt F) ((c : Thread nD τ).loc b))

/-! # Region 2: the elementwise kernel over grid [4], at the entry contents `V`

Eight windows, all moved at every point: inputs 0..3 (three [16,2048] blocks and one [8,16,2048] block) and outputs
4..7 (likewise). The body reads each input block whole (of input 3 the rows 0..6), writes each of the outputs 4..6
whole, and fills output 7 in two pieces: row 0, and rows 1..7 from input 3's rows 0..6. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: the body leaves its block in place and the window is live and uncut at every point, so its
    current staging buffer holds the block of the point whether the block was moved there or not (the block index
    of an unmoved window has not changed). Stated for any proof data over the entry contents `V`. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: the body leaves its block in place and the window is live and uncut at every point, so its
    current staging buffer holds the block of the point whether the block was moved there or not (the block index
    of an unmoved window has not changed). Stated for any proof data over the entry contents `V`. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2: the body leaves its block in place and the window is live and uncut at every point, so its
    current staging buffer holds the block of the point whether the block was moved there or not (the block index
    of an unmoved window has not changed). Stated for any proof data over the entry contents `V`. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3: the body leaves its block in place and the window is live and uncut at every point, so its
    current staging buffer holds the block of the point whether the block was moved there or not (the block index
    of an unmoved window has not changed). Stated for any proof data over the entry contents `V`. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through -/

/-- A [16,2048] buffer, whole. -/
abbrev r2_w : Rect S16x2048 := Rect.unit (s := S16x2048) ![0, 0] S16x2048.size inb_S16x2048_S16x2048_0_0
/-- Row 0 of an [8,16,2048] buffer. -/
abbrev r2_row0 : Rect S8x16x2048 := Rect.unit (s := S8x16x2048) ![0, 0, 0] S1x16x2048.size inb_S8x16x2048_S1x16x2048_0_0_0
/-- Rows 0..6 of an [8,16,2048] buffer. -/
abbrev r2_lo : Rect S8x16x2048 := Rect.unit (s := S8x16x2048) ![0, 0, 0] S7x16x2048.size inb_S8x16x2048_S7x16x2048_0_0_0
/-- Rows 1..7 of an [8,16,2048] buffer. -/
abbrev r2_hi : Rect S8x16x2048 := Rect.unit (s := S8x16x2048) ![1, 0, 0] S7x16x2048.size inb_S8x16x2048_S7x16x2048_1_0_0

/-! ## What the body leaves in each output window's buffer

Each as the list of the stores into the buffer, last first, over the input blocks `x0 … x3` of the point. -/

/-- Output 4: one whole store, of the indicator (0 or 1, as a float) of `x0 ≥ 1 + 1.8 · x1`, entry by entry. -/
def out2_4 (x0 x1 : Vec F S16x2048 .f32) : Vec F S16x2048 .f32 :=
  View.canon [⟨r2_w, k2_pay1 (View.ld x0 r2_w) (View.ld x1 r2_w)⟩]

/-- Output 5: one whole store, of `0.951… · x0 · (1 − ind) + 0.0487… · x2`, `ind` output 4's indicator. -/
def out2_5 (x0 x1 x2 : Vec F S16x2048 .f32) : Vec F S16x2048 .f32 :=
  View.canon [⟨r2_w, k2_pay3 (View.ld x0 r2_w) (View.ld x1 r2_w) (View.ld x2 r2_w)⟩]

/-- Output 6: one whole store, of `0.995… · x1 + ind`, `ind` output 4's indicator. -/
def out2_6 (x0 x1 : Vec F S16x2048 .f32) : Vec F S16x2048 .f32 :=
  View.canon [⟨r2_w, k2_pay2 (View.ld x0 r2_w) (View.ld x1 r2_w)⟩]

/-- Output 7: rows 1..7 receive rows 0..6 of the fourth input block (the later store), row 0 the indicator as a
    one-row slab (the earlier store). -/
def out2_7 (x0 x1 : Vec F S16x2048 .f32) (x3 : Vec F S8x16x2048 .f32) : Vec F S8x16x2048 .f32 :=
  View.canon [⟨r2_hi, View.ld x3 r2_lo⟩, ⟨r2_row0, k2_pay4 (View.ld x0 r2_w) (View.ld x1 r2_w)⟩]

/-- A whole store covers its buffer. -/
theorem cover2_w (p0 : Vec F S16x2048 .f32) (y : S16x2048.Idx) :
    ∃ pc ∈ ([⟨r2_w, p0⟩] : List (View.Piece (Elt F) S16x2048 .f32)), y ∈ pc.1.set :=
  View.cover_of_tiled [⟨r2_w, p0⟩] S16x2048.size (by rfl) y

/-- Rows 1..7 and row 0 together are the eight rows: cut into one-row slabs, the two pieces tile the buffer. -/
theorem cover2_7 (p0 : Vec F S7x16x2048 .f32) (p1 : Vec F S1x16x2048 .f32) (y : S8x16x2048.Idx) :
    ∃ pc ∈ ([⟨r2_hi, p0⟩, ⟨r2_row0, p1⟩] : List (View.Piece (Elt F) S8x16x2048 .f32)), y ∈ pc.1.set :=
  View.cover_of_tiledBy [⟨r2_hi, p0⟩, ⟨r2_row0, p1⟩] S1x16x2048.size (by sl_kernel_rfl) y

/-! ## The body's triple -/

set_option maxHeartbeats 1000000 in
/-- The body on eight whole staging buffers, the inputs' reading `x0 … x3` and the outputs' holding anything (the
    body also loads from its output buffers, and uses none of what it reads there), runs to a continuation that is
    handed the inputs' as they were and each output's at `out2_W` of the inputs. -/
theorem sound_kernel2 (c : Dev nD) (E : Set ℕ) (i : grid2.Coords) (arg1 : Memref sig .tc .vmem S16x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S8x16x2048 .f32) (harg4 : arg4.IsWhole) (arg5 : Memref sig .tc .vmem S16x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S8x16x2048 .f32) (harg8 : arg8.IsWhole)
    (x0 x1 x2 : Vec F S16x2048 .f32) (x3 : Vec F S8x16x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out2_4 x0 x1) ∗ owns (c : Thread nD τ) arg6 fullShare (out2_5 x0 x1 x2)
            ∗ owns (c : Thread nD τ) arg7 fullShare (out2_6 x0 x1) ∗ owns (c : Thread nD τ) arg8 fullShare (out2_7 x0 x1 x3)) -∗ K ⟨⟩))
      ⊢ wp frame (wpE (defs₀ (F := F)) Variants.none c none) E (cc2__elementwise_kernel i arg1 harg1 arg2 harg2 arg3 harg3 arg4 harg4 arg5 harg5 arg6 harg6 arg7 harg7 arg8 harg8) K := by
  simp only [cc2__elementwise_kernel_eq_skeleton]; unfold cc2__elementwise_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_w _)
  isplitl [H5]
  · iexists _; isplitr
    swap; · iexact H5
    ipureintro
    exact View.read_writes_eq_canon _ _ _ (cover2_w _)
  isplitl [H6]
  · iexists _; isplitr
    swap; · iexact H6
    ipureintro
    exact View.read_writes_eq_canon _ _ _ (cover2_w _)
  iexists _; isplitr
  swap; · iexact H7
  ipureintro
  exact View.read_writes_eq_canon _ _ _ (cover2_7 _ _)

/-! ## The pipeline's proof data -/

/-- The proof data of the region's pipeline on core `c`: the arrays as the region finds them; after the body at
    point `t` each input's buffer at its block and each output's at `out2_W` of the input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 1 t) (iblk2 V c 2 t)
    | ⟨6, _⟩ => out2_6 (iblk2 V c 0 t) (iblk2 V c 1 t)
    | ⟨7, _⟩ => out2_7 (iblk2 V c 0 t) (iblk2 V c 1 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 1 t) (iblk2 V c 2 t) := by dsimp only [dat2]
theorem after2_6 (c : Dev nD) (t : Fin cfg2.N) : (dat2 V c).after 6 t = out2_6 (iblk2 V c 0 t) (iblk2 V c 1 t) := by dsimp only [dat2]
theorem after2_7 (c : Dev nD) (t : Fin cfg2.N) : (dat2 V c).after 7 t = out2_7 (iblk2 V c 0 t) (iblk2 V c 1 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
/-
  The whole program as a run: two host operations (a row of the delay buffer taken out and laid flat), the first
  blocked product, a copy of its result, the second blocked product accumulated onto it, and the pointwise update.
  The contents of every unscoped buffer are followed from the launch memory through each of these five steps; the
  run ends with every unscoped buffer at the last of these valuations. From it: every argument array ends as
  launched, and the four result arrays end at what the last region's write-backs leave.
-/
import proofs.«112072_j23527830848088_1_alg».proof.Proof.K.R0
import proofs.«112072_j23527830848088_1_alg».proof.Proof.K.R1
import proofs.«112072_j23527830848088_1_alg».proof.Proof.K.R2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the copy of the first product (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat2 (V4 m ρ) c).arrAt_in 0 rfl _).trans (A_eq2 (V4 m ρ) c 0))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := (W5_arr m ρ c 1).trans (((dat2 (V4 m ρ) c).arrAt_in 1 rfl _).trans (A_eq2 (V4 m ρ) c 1))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := (W5_arr m ρ c 3).trans (((dat2 (V4 m ρ) c).arrAt_in 3 rfl _).trans (A_eq2 (V4 m ρ) c 3))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := (W4_arr m ρ c 1).trans (((dat1 (V3 m ρ) c).arrAt_in 1 rfl _).trans (A_eq1 (V3 m ρ) c 1))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 3) → (pcfgs (F := F) p).Adm := fun p => (cfgs p).toPCfg_adm
/-- Each region's proof data at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at its entry contents, left with the region's
    arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]
    refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the region's
    arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    rw [Pipeline.ownSems0_none]
    refine BIBase.Entails.trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its entry contents, left with the region's
    arrays at what its write-backs leave and every other buffer as entered. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting, and every final state
    has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.Kernel.Fr

end
-- ==== Proof.KI.R0Runs.lean ====
/-
  Region 0: the first blocked product. The grid is 4 × 8; the point t has column block n = t / 8 and reduction
  step k = t % 8. A scratch accumulator of one output block is zeroed at k = 0, receives the product of the
  k-th 16 × 1024 block of the left operand with the (k, n) block of the right operand at every step, and is
  copied into the output block at k = 7; at the other steps the output block's buffer is left alone.
  This module runs the body once per control case — A: k = 0, B: 0 < k < 7, C: k = 7 — and records what each
  case leaves in the accumulator and in the output buffer.
-/
import proofs.«112072_j23527830848088_1_alg».proof.Proof.Gen.KernelIdeal.Launch
import proofs.«112072_j23527830848088_1_alg».proof.Proof.Gen.KernelIdeal.Skeleton
import proofs.«112072_j23527830848088_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's buffer holds its block at every point, for any proof data over these arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first reduction step" as the body computes it from the coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last reduction step". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last step the output block's buffer is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is stored into. -/
theorem liveAt0_2 : ∀ t : Fin cfg0.N, cond0_1 (grid0.coords t) → cfg0.idle 2 (grid0.coords t) = false := by decide +kernel

/-! ## The memrefs the body is called with -/

/-- A staging buffer of the output window, through which its contents are stated. -/
abbrev VO0_2 : View sig .tc .vmem S16x2048 .f32 := (Memref.whole cc0_stg2_0 : Memref sig .tc .vmem S16x2048 .f32).view
abbrev ms0_0 (t : Fin cfg0.N) : Memref sig .tc .vmem S16x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x2048 .f32 := win0_2.stage (cfg0.slots t 2)
abbrev hs0_2 (t : Fin cfg0.N) : (ms0_2 t).IsWhole := hstage0_2 ((cfg0.slots t 2).cast nbuf0_2)
/-- The accumulator. -/
abbrev scM0_0 : Memref sig .tc .vmem S16x2048 .f32 := Memref.whole cc0_scratch0
abbrev VS0_0 : View sig .tc .vmem S16x2048 .f32 := scM0_0.view

/-- The region's invariant before any point has named the accumulator: the accumulator at some contents, the other
    scoped buffers untouched, the generator register at some state. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body, case by case -/

set_option maxHeartbeats 1000000 in
/-- CASE A (first step, not the last). The accumulator is found at anything, zeroed, and then receives the first
    product; the output buffer is handed back untouched. The pieces the accumulator ends with are found by the run. -/
noncomputable def kernelRun0_A (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : cond0_0 i) (hc1 : ¬cond0_1 i)
    (x0 : Vec F S16x1024 .f32) (x1 : Vec F S1024x2048 .f32) :
    Σ' (L2 : List (View.Piece (Elt F) S16x2048 .f32)), { LS0 : List (View.Piece (Elt F) S16x2048 .f32) //
      ∀ (xi2 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_int_kernel i arg2 harg2 arg3 harg3 arg4 harg4 arg5 harg5) K } := by
  refine ⟨[], ?_, fun xi2 E K => ?run⟩
  case run =>
    simp only [cc0__mm_int_kernel_eq_skeleton]; unfold cc0__mm_int_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (a middle step). The accumulator is found at what the step before left and receives one more product;
    the output buffer is handed back untouched. -/
noncomputable def kernelRun0_B (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : ¬cond0_1 i)
    (x0 : Vec F S16x1024 .f32) (x1 : Vec F S1024x2048 .f32) (xs0 : Vec F S16x2048 .f32) :
    Σ' (L2 : List (View.Piece (Elt F) S16x2048 .f32)), { LS0 : List (View.Piece (Elt F) S16x2048 .f32) //
      ∀ (xi2 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_int_kernel i arg2 harg2 arg3 harg3 arg4 harg4 arg5 harg5) K } := by
  refine ⟨[], ?_, fun xi2 E K => ?run⟩
  case run =>
    simp only [cc0__mm_int_kernel_eq_skeleton]; unfold cc0__mm_int_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (the last step). The accumulator receives the last product and is copied into the output buffer, which
    is found at anything. -/
noncomputable def kernelRun0_C (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) :
    Σ' (L2 : List (View.Piece (Elt F) S16x2048 .f32)), { LS0 : List (View.Piece (Elt F) S16x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm_int_kernel i arg2 harg2 arg3 harg3 arg4 harg4 arg5 harg5) K } := by
  refine ⟨?_, ?_, fun E K => ?run⟩
  case run =>
    simp only [cc0__mm_int_kernel_eq_skeleton]; unfold cc0__mm_int_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.R0.lean ====
/-
  Region 0, continued: what the accumulator and the output block's buffer hold after every point, by recursion on
  the point (the accumulator at step k > 0 is built over what step k − 1 left; at k = 0 it starts afresh), the
  region's proof data over these contents, and the body's obligation at every point.
-/
import proofs.«112072_j23527830848088_1_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover0_A (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : cond0_0 i) (hc1 : ¬cond0_1 i)
    (x0 : Vec F S16x1024 .f32) (x1 : Vec F S1024x2048 .f32) (y : S16x2048.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S16x2048.size (by sl_kernel_rfl) y

/-- The accumulator after a first step. -/
def sout0_A (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : cond0_0 i) (hc1 : ¬cond0_1 i)
    (x0 : Vec F S16x1024 .f32) (x1 : Vec F S1024x2048 .f32) : Vec F S16x2048 .f32 :=
  VS0_0.read (Elt F) (VS0_0.writes (Elt F) VS0_0.junk (kernelRun0_A c i arg2 harg2 arg3 harg3 arg4 harg4 arg5 harg5 hc0 hc1 x0 x1).2.1)

/-- The output buffer is not stored into at a first step: a placeholder nothing reads. -/
def out0_A_2 (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : cond0_0 i) (hc1 : ¬cond0_1 i)
    (x0 : Vec F S16x1024 .f32) (x1 : Vec F S1024x2048 .f32) : Vec F S16x2048 .f32 :=
  VO0_2.read (Elt F) (VO0_2.writes (Elt F) VO0_2.junk (kernelRun0_A c i arg2 harg2 arg3 harg3 arg4 harg4 arg5 harg5 hc0 hc1 x0 x1).1)

theorem scover0_B (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : ¬cond0_1 i)
    (x0 : Vec F S16x1024 .f32) (x1 : Vec F S1024x2048 .f32) (xs0 : Vec F S16x2048 .f32) (y : S16x2048.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S16x2048.size (by sl_kernel_rfl) y

/-- The accumulator after a middle step, over what the step before left. -/
def sout0_B (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : ¬cond0_1 i)
    (x0 : Vec F S16x1024 .f32) (x1 : Vec F S1024x2048 .f32) (xs0 : Vec F S16x2048 .f32) : Vec F S16x2048 .f32 :=
  VS0_0.read (Elt F) (VS0_0.writes (Elt F) VS0_0.junk (kernelRun0_B c i arg2 harg2 arg3 harg3 arg4 harg4 arg5 harg5 hc0 hc1 x0 x1 xs0).2.1)

def out0_B_2 (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : ¬cond0_1 i)
    (x0 : Vec F S16x1024 .f32) (x1 : Vec F S1024x2048 .f32) (xs0 : Vec F S16x2048 .f32) : Vec F S16x2048 .f32 :=
  VO0_2.read (Elt F) (VO0_2.writes (Elt F) VO0_2.junk (kernelRun0_B c i arg2 harg2 arg3 harg3 arg4 harg4 arg5 harg5 hc0 hc1 x0 x1 xs0).1)

theorem scover0_C (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) (y : S16x2048.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S16x2048.size (by sl_kernel_rfl) y

/-- The accumulator after the last step. -/
def sout0_C (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) : Vec F S16x2048 .f32 :=
  VS0_0.read (Elt F) (VS0_0.writes (Elt F) VS0_0.junk (kernelRun0_C c i arg2 harg2 arg3 harg3 arg4 harg4 arg5 harg5 hc0 hc1 x0 x1 xs0).2.1)

theorem cover0_C_2 (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) (y : S16x2048.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S16x2048.size (by sl_kernel_rfl) y

/-- The output buffer after the last step. -/
def out0_C_2 (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) : Vec F S16x2048 .f32 :=
  VO0_2.read (Elt F) (VO0_2.writes (Elt F) VO0_2.junk (kernelRun0_C c i arg2 harg2 arg3 harg3 arg4 harg4 arg5 harg5 hc0 hc1 x0 x1 xs0).1)

/-! ## Point by point -/

/-- What the output block's buffer and the accumulator hold after the body at position `n` (in that order): the case
    the position's reduction step selects, run on the position's blocks, over what position `n − 1` left in the
    accumulator unless a new column block begins. -/
def outsAt0 (c : Dev nD) : (n : ℕ) → n < cfg0.N → Vec F S16x2048 .f32 × Vec F S16x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first step. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle step: over what the point before left in the accumulator. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last step. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator is at anything; afterwards
    it is at what the point before left; the other scoped buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body each operand's buffer at its block, the output block's buffer
    and the accumulator as `outsAt0` says; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by the case its reduction step selects. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 32 := lt_of_lt_of_eq t.isLt (show cfg0.N = 32 from N_0)
  by_cases h0 : t.val % 8 = 0
  · by_cases h1 : t.val % 8 = 7
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

/-- The body's obligation at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Fr

end
-- ==== Proof.KI.R1.lean ====
/-
  Region 1: the second blocked product, continuing an earlier one. The grid is 4 × 4; the point t has column block
  n = t / 4 and reduction step k = t % 4. A scratch accumulator of one output block is set, at k = 0, to the (0, n)
  block of the array the earlier product wrote; at every step it receives the product of the k-th 16 × 1024 block of
  the left operand with the (k, n) block of the right operand; at k = 3 it is copied into the output block, whose
  buffer is left alone at the other steps.
  This module is the region's half of the frame argument at given entry contents: the body run once per control
  case — A: k = 0, B: k = 1, 2, C: k = 3 —, what each case leaves in the accumulator and in the output buffer, those
  contents point by point along the grid, the proof data of the pipeline over them, and the body obligation.
-/
import proofs.«112072_j23527830848088_1_alg».proof.Proof.Gen.KernelIdeal.Launch
import proofs.«112072_j23527830848088_1_alg».proof.Proof.Gen.KernelIdeal.Skeleton
import proofs.«112072_j23527830848088_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter a region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried block's buffer holds its block at every point — its block index does not read the reduction step, so
    between two fetches the block has not moved —, for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the left operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "This is the first reduction step", as the body computes it from the coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last reduction step". -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A the output block's buffer is idle and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same at the points of case B. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points of case C it is stored into. -/
theorem liveAt1_3_C : ∀ t : Fin cfg1.N, ¬cond1_0 (grid1.coords t) → cond1_1 (grid1.coords t) → cfg1.idle 3 (grid1.coords t) = false := by decide +kernel

/-! ## The memrefs the body is called with -/

/-- A staging buffer of the output window, through which its contents are stated (any would do: what a covering list
    of writes reads back does not depend on the view). -/
abbrev VO1_3 : View sig .tc .vmem S16x2048 .f32 := (Memref.whole cc1_stg3_0 : Memref sig .tc .vmem S16x2048 .f32).view
/-- Each window's current staging memref at point `t`, and its wholeness. -/
abbrev ms1_0 (t : Fin cfg1.N) : Memref sig .tc .vmem S16x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x2048 .f32 := win1_3.stage (cfg1.slots t 3)
abbrev hs1_3 (t : Fin cfg1.N) : (ms1_3 t).IsWhole := hstage1_3 ((cfg1.slots t 3).cast nbuf1_3)
/-- The accumulator: a whole scoped buffer of the region's own, passed beside the windows. -/
abbrev scM1_0 : Memref sig .tc .vmem S16x2048 .f32 := Memref.whole cc1_scratch0
abbrev VS1_0 : View sig .tc .vmem S16x2048 .f32 := scM1_0.view

/-- The scoped buffers that are no staging buffer of this region, split at the accumulator: the accumulator at some
    contents, and every other one unopened. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The region's invariant before any point has named the accumulator: the accumulator at some contents, the other
    scoped buffers untouched, the generator register at some state. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body, case by case -/

set_option maxHeartbeats 1000000 in
/-- CASE A (first reduction step, not the last). The carried block is loaded from its window, the accumulator — found
    at anything — is set to it and then receives the first product; the output buffer is handed back untouched. The
    pieces the accumulator ends with are part of the result. -/
noncomputable def kernelRun1_A (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : cond1_0 i) (hc1 : ¬cond1_1 i)
    (x0 : Vec F S16x2048 .f32) (x1 : Vec F S16x1024 .f32) (x2 : Vec F S1024x2048 .f32) :
    Σ' (L3 : List (View.Piece (Elt F) S16x2048 .f32)), { LS0 : List (View.Piece (Elt F) S16x2048 .f32) //
      ∀ (xi3 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_ext_kernel i arg2 harg2 arg3 harg3 arg4 harg4 arg5 harg5 arg6 harg6) K } := by
  refine ⟨[], ?_, fun xi3 E K => ?run⟩
  case run =>
    simp only [cc1__mm_ext_kernel_eq_skeleton]; unfold cc1__mm_ext_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (a middle step). The accumulator is found at what the step before left and receives one more product; the
    output buffer is handed back untouched. -/
noncomputable def kernelRun1_B (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : ¬cond1_1 i)
    (x0 : Vec F S16x2048 .f32) (x1 : Vec F S16x1024 .f32) (x2 : Vec F S1024x2048 .f32) (xs0 : Vec F S16x2048 .f32) :
    Σ' (L3 : List (View.Piece (Elt F) S16x2048 .f32)), { LS0 : List (View.Piece (Elt F) S16x2048 .f32) //
      ∀ (xi3 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_ext_kernel i arg2 harg2 arg3 harg3 arg4 harg4 arg5 harg5 arg6 harg6) K } := by
  refine ⟨[], ?_, fun xi3 E K => ?run⟩
  case run =>
    simp only [cc1__mm_ext_kernel_eq_skeleton]; unfold cc1__mm_ext_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (the last step). The accumulator receives the last product and is copied into the output buffer, which is
    found at anything. -/
noncomputable def kernelRun1_C (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) :
    Σ' (L3 : List (View.Piece (Elt F) S16x2048 .f32)), { LS0 : List (View.Piece (Elt F) S16x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__mm_ext_kernel i arg2 harg2 arg3 harg3 arg4 harg4 arg5 harg5 arg6 harg6) K } := by
  refine ⟨?_, ?_, fun E K => ?run⟩
  case run =>
    simp only [cc1__mm_ext_kernel_eq_skeleton]; unfold cc1__mm_ext_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves -/

/-- Case A stores nothing into the output buffer (the window is idle at its points and not written back there): no
    pieces — a placeholder that nothing consults. -/
def out1_A_3 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : cond1_0 i) (hc1 : ¬cond1_1 i)
    (x0 : Vec F S16x2048 .f32) (x1 : Vec F S16x1024 .f32) (x2 : Vec F S1024x2048 .f32) : Vec F S16x2048 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator tile it (two whole-block stores), so they cover it. -/
theorem scover1_A_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : cond1_0 i) (hc1 : ¬cond1_1 i)
    (x0 : Vec F S16x2048 .f32) (x1 : Vec F S16x1024 .f32) (x2 : Vec F S1024x2048 .f32) (y : S16x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S16x2048.size (by sl_kernel_rfl) y

/-- What case A leaves in the accumulator: its pieces read back. -/
def sout1_A_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : cond1_0 i) (hc1 : ¬cond1_1 i)
    (x0 : Vec F S16x2048 .f32) (x1 : Vec F S16x1024 .f32) (x2 : Vec F S1024x2048 .f32) : Vec F S16x2048 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output buffer (the window is idle at its points and not written back there): no
    pieces — a placeholder that nothing consults. -/
def out1_B_3 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : ¬cond1_1 i)
    (x0 : Vec F S16x2048 .f32) (x1 : Vec F S16x1024 .f32) (x2 : Vec F S1024x2048 .f32) (xs0 : Vec F S16x2048 .f32) : Vec F S16x2048 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the accumulator tile it (one whole-block store), so they cover it. -/
theorem scover1_B_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : ¬cond1_1 i)
    (x0 : Vec F S16x2048 .f32) (x1 : Vec F S16x1024 .f32) (x2 : Vec F S1024x2048 .f32) (xs0 : Vec F S16x2048 .f32) (y : S16x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S16x2048.size (by sl_kernel_rfl) y

/-- What case B leaves in the accumulator: its pieces read back. -/
def sout1_B_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : ¬cond1_1 i)
    (x0 : Vec F S16x2048 .f32) (x1 : Vec F S16x1024 .f32) (x2 : Vec F S1024x2048 .f32) (xs0 : Vec F S16x2048 .f32) : Vec F S16x2048 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output buffer is of the whole block, so its pieces cover it. -/
theorem cover1_C_3 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) (y : S16x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S16x2048.size (by sl_kernel_rfl) y

/-- What case C leaves in the output buffer: its pieces read back. -/
def out1_C_3 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) : Vec F S16x2048 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the accumulator tile it (one whole-block store), so they cover it. -/
theorem scover1_C_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) (y : S16x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S16x2048.size (by sl_kernel_rfl) y

/-- What case C leaves in the accumulator: its pieces read back. -/
def sout1_C_0 (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) : Vec F S16x2048 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output buffer and the accumulator hold after each point -/

/-- THE ACCUMULATION. What the output window's staging buffer and the accumulator hold after the body at position
    `n` (a pair: the output buffer, then the accumulator): the case the closed forms select at `n`, run at the point's
    memrefs and input blocks; in cases B and C over what the accumulator held after position `n - 1`; in case A — the
    first step of a column block, at position 0 or later — over nothing earlier. Both conditions at once is no case. -/
def outsAt1 (c : Dev nD) : (n : ℕ) → n < cfg1.N → Vec F S16x2048 .f32 × Vec F S16x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left in the accumulator. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant along the grid -/

/-- The invariant before position `n`: before the first point, every scoped buffer that is no staging buffer of this
    region at some contents and the generator register at some state; afterwards the same with the accumulator at what
    the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which case the point is in; the
    invariant hands the body the accumulator — at what the point before left, or at anything at the very first point
    (and in case A its contents are not used) —, the other scoped buffers and the generator register pass through
    untouched, and the accumulator is taken back at this point's contents, its pieces covering it. In cases A and B
    the output buffer is handed back as found; in case C it is taken back at the copied accumulator. The core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry form back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Fr

end
-- ==== Proof.KI.R2.lean ====
/-
  Region 2: the pointwise update. The grid has four points, one per block of 2048 columns; at each the body reads the
  blocks of the potential, the adaptation, the input current and the eight rows of the delay line, and writes the
  blocks of the spikes, the new potential, the new adaptation, and the new delay line — the spikes in row 0, the old
  rows 0 … 6 in rows 1 … 7. Nothing is carried from point to point and every block is written back at every point.
  This module is the region's half of the frame argument at given entry contents: what the body leaves in each
  output block's buffer as a function of the input blocks, the body's run, the proof data and the body obligation.
-/
import proofs.«112072_j23527830848088_1_alg».proof.Proof.Gen.KernelIdeal.Launch
import proofs.«112072_j23527830848088_1_alg».proof.Proof.Gen.KernelIdeal.Skeleton
import proofs.«112072_j23527830848088_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter a region's half is stated at
variable (V : (c : Dev nD) → (b : Ref sig .tc) → Buf (Elt F) ((c : Thread nD τ).loc b))

/-! # Region 2: the elementwise kernel over grid [4], at the entry contents `V`

Eight windows, all moved at every point: inputs 0..3 (three [16,2048] blocks and one [8,16,2048] block) and outputs
4..7 (likewise). The body reads each input block whole (of input 3 the rows 0..6), writes each of the outputs 4..6
whole, and fills output 7 in two pieces: row 0, and rows 1..7 from input 3's rows 0..6. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: the body leaves its block in place and the window is live and uncut at every point, so its
    current staging buffer holds the block of the point whether the block was moved there or not (the block index
    of an unmoved window has not changed). Stated for any proof data over the entry contents `V`. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: the body leaves its block in place and the window is live and uncut at every point, so its
    current staging buffer holds the block of the point whether the block was moved there or not (the block index
    of an unmoved window has not changed). Stated for any proof data over the entry contents `V`. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2: the body leaves its block in place and the window is live and uncut at every point, so its
    current staging buffer holds the block of the point whether the block was moved there or not (the block index
    of an unmoved window has not changed). Stated for any proof data over the entry contents `V`. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3: the body leaves its block in place and the window is live and uncut at every point, so its
    current staging buffer holds the block of the point whether the block was moved there or not (the block index
    of an unmoved window has not changed). Stated for any proof data over the entry contents `V`. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through -/

/-- A [16,2048] buffer, whole. -/
abbrev r2_w : Rect S16x2048 := Rect.unit (s := S16x2048) ![0, 0] S16x2048.size inb_S16x2048_S16x2048_0_0
/-- Row 0 of an [8,16,2048] buffer. -/
abbrev r2_row0 : Rect S8x16x2048 := Rect.unit (s := S8x16x2048) ![0, 0, 0] S1x16x2048.size inb_S8x16x2048_S1x16x2048_0_0_0
/-- Rows 0..6 of an [8,16,2048] buffer. -/
abbrev r2_lo : Rect S8x16x2048 := Rect.unit (s := S8x16x2048) ![0, 0, 0] S7x16x2048.size inb_S8x16x2048_S7x16x2048_0_0_0
/-- Rows 1..7 of an [8,16,2048] buffer. -/
abbrev r2_hi : Rect S8x16x2048 := Rect.unit (s := S8x16x2048) ![1, 0, 0] S7x16x2048.size inb_S8x16x2048_S7x16x2048_1_0_0

/-! ## What the body leaves in each output window's buffer

Each as the list of the stores into the buffer, last first, over the input blocks `x0 … x3` of the point. -/

/-- Output 4: one whole store, of the indicator (0 or 1, as a float) of `x0 ≥ 1 + 1.8 · x1`, entry by entry. -/
def out2_4 (x0 x1 : Vec F S16x2048 .f32) : Vec F S16x2048 .f32 :=
  View.canon [⟨r2_w, k2_pay1 (View.ld x0 r2_w) (View.ld x1 r2_w)⟩]

/-- Output 5: one whole store, of `0.951… · x0 · (1 − ind) + 0.0487… · x2`, `ind` output 4's indicator. -/
def out2_5 (x0 x1 x2 : Vec F S16x2048 .f32) : Vec F S16x2048 .f32 :=
  View.canon [⟨r2_w, k2_pay3 (View.ld x0 r2_w) (View.ld x1 r2_w) (View.ld x2 r2_w)⟩]

/-- Output 6: one whole store, of `0.995… · x1 + ind`, `ind` output 4's indicator. -/
def out2_6 (x0 x1 : Vec F S16x2048 .f32) : Vec F S16x2048 .f32 :=
  View.canon [⟨r2_w, k2_pay2 (View.ld x0 r2_w) (View.ld x1 r2_w)⟩]

/-- Output 7: rows 1..7 receive rows 0..6 of the fourth input block (the later store), row 0 the indicator as a
    one-row slab (the earlier store). -/
def out2_7 (x0 x1 : Vec F S16x2048 .f32) (x3 : Vec F S8x16x2048 .f32) : Vec F S8x16x2048 .f32 :=
  View.canon [⟨r2_hi, View.ld x3 r2_lo⟩, ⟨r2_row0, k2_pay4 (View.ld x0 r2_w) (View.ld x1 r2_w)⟩]

/-- A whole store covers its buffer. -/
theorem cover2_w (p0 : Vec F S16x2048 .f32) (y : S16x2048.Idx) :
    ∃ pc ∈ ([⟨r2_w, p0⟩] : List (View.Piece (Elt F) S16x2048 .f32)), y ∈ pc.1.set :=
  View.cover_of_tiled [⟨r2_w, p0⟩] S16x2048.size (by rfl) y

/-- Rows 1..7 and row 0 together are the eight rows: cut into one-row slabs, the two pieces tile the buffer. -/
theorem cover2_7 (p0 : Vec F S7x16x2048 .f32) (p1 : Vec F S1x16x2048 .f32) (y : S8x16x2048.Idx) :
    ∃ pc ∈ ([⟨r2_hi, p0⟩, ⟨r2_row0, p1⟩] : List (View.Piece (Elt F) S8x16x2048 .f32)), y ∈ pc.1.set :=
  View.cover_of_tiledBy [⟨r2_hi, p0⟩, ⟨r2_row0, p1⟩] S1x16x2048.size (by sl_kernel_rfl) y

/-! ## The body's triple -/

set_option maxHeartbeats 1000000 in
/-- The body on eight whole staging buffers, the inputs' reading `x0 … x3` and the outputs' holding anything (the
    body also loads from its output buffers, and uses none of what it reads there), runs to a continuation that is
    handed the inputs' as they were and each output's at `out2_W` of the inputs. -/
theorem sound_kernel2 (c : Dev nD) (E : Set ℕ) (i : grid2.Coords) (arg1 : Memref sig .tc .vmem S16x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S8x16x2048 .f32) (harg4 : arg4.IsWhole) (arg5 : Memref sig .tc .vmem S16x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S8x16x2048 .f32) (harg8 : arg8.IsWhole)
    (x0 x1 x2 : Vec F S16x2048 .f32) (x3 : Vec F S8x16x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out2_4 x0 x1) ∗ owns (c : Thread nD τ) arg6 fullShare (out2_5 x0 x1 x2)
            ∗ owns (c : Thread nD τ) arg7 fullShare (out2_6 x0 x1) ∗ owns (c : Thread nD τ) arg8 fullShare (out2_7 x0 x1 x3)) -∗ K ⟨⟩))
      ⊢ wp frame (wpE (defs₀ (F := F)) Variants.none c none) E (cc2__elementwise_kernel i arg1 harg1 arg2 harg2 arg3 harg3 arg4 harg4 arg5 harg5 arg6 harg6 arg7 harg7 arg8 harg8) K := by
  simp only [cc2__elementwise_kernel_eq_skeleton]; unfold cc2__elementwise_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_w _)
  isplitl [H5]
  · iexists _; isplitr
    swap; · iexact H5
    ipureintro
    exact View.read_writes_eq_canon _ _ _ (cover2_w _)
  isplitl [H6]
  · iexists _; isplitr
    swap; · iexact H6
    ipureintro
    exact View.read_writes_eq_canon _ _ _ (cover2_w _)
  iexists _; isplitr
  swap; · iexact H7
  ipureintro
  exact View.read_writes_eq_canon _ _ _ (cover2_7 _ _)

/-! ## The pipeline's proof data -/

/-- The proof data of the region's pipeline on core `c`: the arrays as the region finds them; after the body at
    point `t` each input's buffer at its block and each output's at `out2_W` of the input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 1 t) (iblk2 V c 2 t)
    | ⟨6, _⟩ => out2_6 (iblk2 V c 0 t) (iblk2 V c 1 t)
    | ⟨7, _⟩ => out2_7 (iblk2 V c 0 t) (iblk2 V c 1 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 1 t) (iblk2 V c 2 t) := by dsimp only [dat2]
theorem after2_6 (c : Dev nD) (t : Fin cfg2.N) : (dat2 V c).after 6 t = out2_6 (iblk2 V c 0 t) (iblk2 V c 1 t) := by dsimp only [dat2]
theorem after2_7 (c : Dev nD) (t : Fin cfg2.N) : (dat2 V c).after 7 t = out2_7 (iblk2 V c 0 t) (iblk2 V c 1 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The whole program as a run: two host operations (a row of the delay buffer taken out and laid flat), the first
  blocked product, a copy of its result, the second blocked product accumulated onto it, and the pointwise update.
  The contents of every unscoped buffer are followed from the launch memory through each of these five steps; the
  run ends with every unscoped buffer at the last of these valuations. From it: every argument array ends as
  launched, and the four result arrays end at what the last region's write-backs leave.
-/
import proofs.«112072_j23527830848088_1_alg».proof.Proof.KI.R0
import proofs.«112072_j23527830848088_1_alg».proof.Proof.KI.R1
import proofs.«112072_j23527830848088_1_alg».proof.Proof.KI.R2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the copy of the first product (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat2 (V4 m ρ) c).arrAt_in 0 rfl _).trans (A_eq2 (V4 m ρ) c 0))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := (W5_arr m ρ c 1).trans (((dat2 (V4 m ρ) c).arrAt_in 1 rfl _).trans (A_eq2 (V4 m ρ) c 1))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := (W5_arr m ρ c 3).trans (((dat2 (V4 m ρ) c).arrAt_in 3 rfl _).trans (A_eq2 (V4 m ρ) c 3))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := (W4_arr m ρ c 1).trans (((dat1 (V3 m ρ) c).arrAt_in 1 rfl _).trans (A_eq1 (V3 m ρ) c 1))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 3) → (pcfgs (F := F) p).Adm := fun p => (cfgs p).toPCfg_adm
/-- Each region's proof data at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at its entry contents, left with the region's
    arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]
    refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the region's
    arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    rw [Pipeline.ownSems0_none]
    refine BIBase.Entails.trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its entry contents, left with the region's
    arrays at what its write-backs leave and every other buffer as entered. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting, and every final state
    has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Fr

end
-- ==== Proof.LibBlockAcc.lean ====
/-
  Two general facts used to join a kernel to its reference over the extended reals.

  A comparison bit as a number: a one-bit result widened to 32 bits and converted as a SIGNED integer is the same
  number (0 or 1) as the bit converted as an UNSIGNED integer — the two spellings of `(a ≥ b).astype(float32)`.

  A sum taken in blocks: the sum of K·B terms is the sum over K blocks of B terms each (`sum_blocks`), and an
  accumulator that starts at a value c₀ and receives one block per step holds, after n steps, c₀ plus the first n
  blocks (`accFrom_eq`) — the closed form of a K-blocked matrix product accumulated left to right in a scratch
  buffer, from zero or from a carried partial result. Only associativity and commutativity of + are used, so the
  facts hold on all of the extended reals, infinities included.
-/
import Idealize.ShloMosaic.PureOps.Ideal
import Idealize.ShloMosaic.PureOps.Ideal.Laws
import Mathlib.Data.Fintype.BigOperators
import Mathlib.Algebra.BigOperators.Group.Finset.Basic

noncomputable section

namespace Cert.Lib.BlockAcc

open Idealize.ShloMosaic
open scoped BigOperators

/-! ## A comparison bit as a number -/

/-- A bit widened to 32 bits and read signed is the bit read unsigned. -/
theorem toInt_setWidth_bit : ∀ b : BitVec 1, (b.setWidth 32).toInt = (b.toNat : ℤ) := by decide

/-- A bit converted unsigned, at an index: the bit as a number. -/
theorem uitofp_bit_apply {S : Shape} (b : IVec S 1) (i : S.Idx) :
    (uitofp .f32 b : FVec Ideal S .f32) i = (((b i).toNat : ℝ) : EReal) := rfl

/-- A bit widened to a word and converted signed, at an index: the bit as a number. -/
theorem sitofp_extui_bit_apply {S : Shape} (b : IVec S 1) (h : 1 < 32) (i : S.Idx) :
    (sitofp .f32 (extui 32 b h) : FVec Ideal S .f32) i = (((b i).toNat : ℝ) : EReal) := by
  show ((((b i).setWidth 32).toInt : ℝ) : EReal) = (((b i).toNat : ℝ) : EReal)
  rw [toInt_setWidth_bit]
  norm_cast

/-- So the two conversions of a comparison bit agree at every index. -/
theorem sitofp_extui_eq_uitofp_apply {S : Shape} (b : IVec S 1) (h : 1 < 32) (i : S.Idx) :
    (sitofp .f32 (extui 32 b h) : FVec Ideal S .f32) i = (uitofp .f32 b : FVec Ideal S .f32) i :=
  (sitofp_extui_bit_apply b h i).trans (uitofp_bit_apply b i).symm

/-- The same on one bit, as the scalar operations spell it. -/
theorem sitofp_setWidth_bit (b : BitVec 1) :
    (FloatOps.sitofp (F := Ideal) .f32 (b.setWidth 32) : EReal) = ((b.toNat : ℝ) : EReal) := by
  show (((b.setWidth 32).toInt : ℝ) : EReal) = ((b.toNat : ℝ) : EReal)
  rw [toInt_setWidth_bit]
  norm_cast

/-! ## A sum in blocks, accumulated from a starting value -/

/-- Block `j` of width `B` of the sum of `f`. -/
def blockSum (B : ℕ) (f : ℕ → EReal) (j : ℕ) : EReal := ∑ k : Fin B, f (j * B + k.val)

/-- `K` blocks of width `B` make the sum over `K * B` terms. -/
theorem sum_blocks (B K : ℕ) (f : ℕ → EReal) :
    ∑ j ∈ Finset.range K, blockSum B f j = ∑ k : Fin (K * B), f k.val := by
  rw [Fin.sum_univ_eq_sum_range (fun k => f k) (K * B)]
  induction K with
  | zero => simp
  | succ K ih =>
    rw [Finset.sum_range_succ, ih, Nat.succ_mul, Finset.sum_range_add]
    congr 1
    unfold blockSum
    rw [Fin.sum_univ_eq_sum_range (fun k => f (K * B + k)) B]

/-- An accumulator that starts at `c0` and takes `S n` at step `n`. -/
def accFrom (c0 : EReal) (S : ℕ → EReal) : ℕ → EReal
  | 0 => c0
  | n + 1 => accFrom c0 S n + S n

/-- After `n` steps it holds the starting value plus the first `n` terms. -/
theorem accFrom_eq (c0 : EReal) (S : ℕ → EReal) (n : ℕ) :
    accFrom c0 S n = c0 + ∑ j ∈ Finset.range n, S j := by
  induction n with
  | zero => simp [accFrom]
  | succ n ih => rw [accFrom, ih, Finset.sum_range_succ, add_assoc]

end Cert.Lib.BlockAcc

end
-- ==== Proof.Spec.lean ====
/-
  The specification of one step of the adaptive-threshold spiking layer, on the extended reals, index by index.

  For V, a : [16, 8192], a delay line Xd : [8, 16, 8192], an external input Xext : [16, 4096] and weights
  W_int : [8192, 8192], W_ext : [4096, 8192]:
    X       = 1 where V ≥ 1 + 1.8·a, else 0
    a_new   = ρ·a + X
    current = Xd[7] · W_int + Xext · W_ext
    V_new   = (α·V)·(1 − X) + β·current
    Xd_new  = X in front of Xd[0 .. 6] along the first axis
  The five constants are the extended reals their f32 words denote; they stay as words, the same on both sides of every
  equation they appear in. Also here: the comparison bit read as a number (the signed reading of the widened bit is
  the unsigned reading of the bit), and a sum cut into blocks and accumulated block by block from a starting value.
-/
import Idealize.ShloMosaic.PureOps.Ideal
import Idealize.ShloMosaic.PureOps.Ideal.Laws
import Idealize.ShloMosaic.Lib.ValueIdx
import proofs.«112072_j23527830848088_1_alg».proof.Proof.LibBlockAcc
import Mathlib.Data.Fintype.BigOperators
import Mathlib.Algebra.BigOperators.Group.Finset.Basic

noncomputable section

namespace Cert.Spec

open Idealize.ShloMosaic Idealize.ShloMosaic.ValueIdx
open scoped BigOperators

/-! ## The shapes -/

abbrev S16x8192 : Shape := ⟨2, ![16, 8192]⟩
abbrev S8x16x8192 : Shape := ⟨3, ![8, 16, 8192]⟩
abbrev S16x4096 : Shape := ⟨2, ![16, 4096]⟩
abbrev S8192x8192 : Shape := ⟨2, ![8192, 8192]⟩
abbrev S4096x8192 : Shape := ⟨2, ![4096, 8192]⟩

/-! ## One neuron -/

/-- The spike: the bit of `v ≥ 1 + 1.8·a` read as a number, `1` or `0`. -/
def spikeS (v a : EReal) : EReal :=
  (((Ideal.cmp .oge v (Ideal.ofBits .f32 0x3F800000#32 + Ideal.ofBits .f32 0x3FE66666#32 * a)).toNat : ℝ) : EReal)

/-- The adaptation after the step: `ρ·a + X`. -/
def anewS (v a : EReal) : EReal :=
  Ideal.ofBits .f32 0x3F7EB923#32 * a + spikeS v a

/-- The potential after the step: `(α·v)·(1 − X) + β·cur`. -/
def vnewS (v a cur : EReal) : EReal :=
  Ideal.ofBits .f32 0x3F7383C6#32 * v * (Ideal.ofBits .f32 0x3F800000#32 - spikeS v a)
    + Ideal.ofBits .f32 0x3D47C3A8#32 * cur

/-- The spike is `1` where the potential reaches the threshold and `0` elsewhere. -/
theorem spikeS_eq_ite (v a : EReal) :
    spikeS v a = if Ideal.ofBits .f32 0x3F800000#32 + Ideal.ofBits .f32 0x3FE66666#32 * a ≤ v then 1 else 0 := by
  unfold spikeS Ideal.cmp
  by_cases h : Ideal.ofBits .f32 0x3F800000#32 + Ideal.ofBits .f32 0x3FE66666#32 * a ≤ v
  · simp [h]
  · simp [h]

/-! ## The comparison bit as a number, and sums taken in blocks: the general facts, under this namespace's names -/

export Cert.Lib.BlockAcc (toInt_setWidth_bit uitofp_bit_apply sitofp_extui_bit_apply sitofp_extui_eq_uitofp_apply
  sitofp_setWidth_bit blockSum sum_blocks accFrom accFrom_eq)

/-! ## The arrays -/

/-- The spikes. -/
def XG (a0 a1 : S16x8192.Idx → EReal) : S16x8192.Idx → EReal :=
  fun i => spikeS (a0 i) (a1 i)

/-- The adaptation. -/
def AG (a0 a1 : S16x8192.Idx → EReal) : S16x8192.Idx → EReal :=
  fun i => anewS (a0 i) (a1 i)

/-- The input current: the oldest row of the delay line through the recurrent weights plus the external input
    through its weights. -/
def CurG (a2 : S8x16x8192.Idx → EReal) (a3 : S16x4096.Idx → EReal) (a4 : S8192x8192.Idx → EReal)
    (a5 : S4096x8192.Idx → EReal) : S16x8192.Idx → EReal :=
  fun i => (∑ k : Fin 8192, a2 (ix3 (7 : Fin 8) (i 0) k) * a4 (ix2 k (i 1)))
    + ∑ k : Fin 4096, a3 (ix2 (i 0) k) * a5 (ix2 k (i 1))

/-- The potential, from a current. -/
def VG (a0 a1 : S16x8192.Idx → EReal) (cur : S16x8192.Idx → EReal) : S16x8192.Idx → EReal :=
  fun i => vnewS (a0 i) (a1 i) (cur i)

/-- The delay line: the spikes in row `0`, the old row `d` in row `d + 1`. -/
def XdG (a0 a1 : S16x8192.Idx → EReal) (a2 : S8x16x8192.Idx → EReal) : S8x16x8192.Idx → EReal :=
  fun i =>
    if (i 0).val = 0 then XG a0 a1 (ix2 (i 1) (i 2))
    else a2 (ix3 (⟨(i 0).val - 1, by have h : (i 0).val < 8 := (i 0).isLt; omega⟩ : Fin 8) (i 1) (i 2))

/-- Row `0` of the new delay line. -/
theorem XdG_zero (a0 a1 : S16x8192.Idx → EReal) (a2 : S8x16x8192.Idx → EReal) (b : Fin 16) (n : Fin 8192) :
    XdG a0 a1 a2 (ix3 (0 : Fin 8) b n) = XG a0 a1 (ix2 b n) := by
  unfold XdG
  rw [if_pos (show ((ix3 (0 : Fin 8) b n) 0).val = 0 from rfl)]

/-- Row `d + 1` of the new delay line. -/
theorem XdG_succ (a0 a1 : S16x8192.Idx → EReal) (a2 : S8x16x8192.Idx → EReal) (d : Fin 7) (b : Fin 16)
    (n : Fin 8192) :
    XdG a0 a1 a2 (ix3 (⟨d.val + 1, by omega⟩ : Fin 8) b n) = a2 (ix3 (⟨d.val, by omega⟩ : Fin 8) b n) := by
  unfold XdG
  rw [if_neg (show ¬((ix3 (⟨d.val + 1, by omega⟩ : Fin 8) b n) 0).val = 0 from Nat.succ_ne_zero _)]
  rfl

end Cert.Spec

end
-- ==== Proof.KI.Pay.lean ====
/-
  The kernel's payloads — the values its three bodies store — read at an index, at the extended reals.

  The two matrix-product bodies store the accumulator plus one block's product: at (b, n), the accumulator there plus
  the sum over the block's 1024 contraction coordinates of the products (the narrowing of the operands is the identity
  at the extended reals, and the product into the zero constant is the bare sum). Their first grid point stores the
  zero constant, or the incoming partial current unchanged. The elementwise body stores the spikes, the adaptation and
  the potential of the specification, neuron by neuron, and the spikes again as a one-row block of the delay line.
-/
import proofs.«112072_j23527830848088_1_alg».proof.Proof.Gen.KernelIdeal.Skeleton
import proofs.«112072_j23527830848088_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-! ## One block's matrix product at an index -/

theorem lhs_dot_0 (i : S16x2048.Idx) (q : dot_S16x1024_S1024x2048_S16x2048_1_0_0_1_n_n.contr.Idx) :
    (dot_S16x1024_S1024x2048_S16x2048_1_0_0_1_n_n.lhsIdx i q 0).val = (i 0).val := by
  unfold DotDims.lhsIdx
  rw [dif_neg (show ¬(0 : Fin S16x1024.rank) ∈ dot_S16x1024_S1024x2048_S16x2048_1_0_0_1_n_n.lhsBatch by decide),
    dif_pos (show (0 : Fin S16x1024.rank) ∈ dot_S16x1024_S1024x2048_S16x2048_1_0_0_1_n_n.lhsNonContracting by decide)]
  rfl
theorem lhs_dot_1 (i : S16x2048.Idx) (q : dot_S16x1024_S1024x2048_S16x2048_1_0_0_1_n_n.contr.Idx) :
    (dot_S16x1024_S1024x2048_S16x2048_1_0_0_1_n_n.lhsIdx i q 1).val = (q ⟨0, by decide⟩).val :=
  dot_S16x1024_S1024x2048_S16x2048_1_0_0_1_n_n.lhsIdx_val_of_single rfl i q
theorem rhs_dot_0 (i : S16x2048.Idx) (q : dot_S16x1024_S1024x2048_S16x2048_1_0_0_1_n_n.contr.Idx) :
    (dot_S16x1024_S1024x2048_S16x2048_1_0_0_1_n_n.rhsIdx i q 0).val = (q ⟨0, by decide⟩).val :=
  dot_S16x1024_S1024x2048_S16x2048_1_0_0_1_n_n.rhsIdx_val_of_single rfl i q
theorem rhs_dot_1 (i : S16x2048.Idx) (q : dot_S16x1024_S1024x2048_S16x2048_1_0_0_1_n_n.contr.Idx) :
    (dot_S16x1024_S1024x2048_S16x2048_1_0_0_1_n_n.rhsIdx i q 1).val = (i 1).val := by
  unfold DotDims.rhsIdx
  rw [dif_neg (show ¬(1 : Fin S1024x2048.rank) ∈ dot_S16x1024_S1024x2048_S16x2048_1_0_0_1_n_n.rhsBatch by decide),
    dif_pos (show (1 : Fin S1024x2048.rank) ∈ dot_S16x1024_S1024x2048_S16x2048_1_0_0_1_n_n.rhsNonContracting by decide)]
  rfl

/-- A block's product into the zero constant, at (b, n): the sum over the block's contraction coordinates. -/
theorem matmul_zero_apply (l : FVec Ideal S16x1024 .bf16) (r : FVec Ideal S1024x2048 .bf16) (b : Fin 16) (n : Fin 2048) :
    matmul dot_S16x1024_S1024x2048_S16x2048_1_0_0_1_n_n none l r (constant (F := Ideal) S16x2048 .f32 0x00000000#32) (ix2 b n)
      = ∑ k : Fin 1024, l (ix2 b k) * r (ix2 k n) := by
  simp only [matmul]
  rw [Ideal.matmul_constant_zero_apply,
    ← Equiv.sum_comp (contrEquiv1 dot_S16x1024_S1024x2048_S16x2048_1_0_0_1_n_n 1024 rfl rfl).symm]
  refine Finset.sum_congr rfl fun k _ => ?_
  have hk := contrEquiv1_symm_val dot_S16x1024_S1024x2048_S16x2048_1_0_0_1_n_n 1024 rfl rfl k
  have el : dot_S16x1024_S1024x2048_S16x2048_1_0_0_1_n_n.lhsIdx (ix2 b n)
      ((contrEquiv1 dot_S16x1024_S1024x2048_S16x2048_1_0_0_1_n_n 1024 rfl rfl).symm k) = ix2 b k :=
    funext fun a => Fin.ext (by
      match a with
      | ⟨0, _⟩ => exact lhs_dot_0 _ _
      | ⟨1, _⟩ => exact (lhs_dot_1 _ _).trans hk)
  have er : dot_S16x1024_S1024x2048_S16x2048_1_0_0_1_n_n.rhsIdx (ix2 b n)
      ((contrEquiv1 dot_S16x1024_S1024x2048_S16x2048_1_0_0_1_n_n 1024 rfl rfl).symm k) = ix2 k n :=
    funext fun a => Fin.ext (by
      match a with
      | ⟨0, _⟩ => exact (rhs_dot_0 _ _).trans hk
      | ⟨1, _⟩ => exact rhs_dot_1 _ _)
  rw [el, er]

/-! ## The internal product's body -/

/-- At its first contraction block the body clears the accumulator. -/
theorem pay0_1 (j : S16x2048.Idx) : k0_pay1 (F := Ideal) j = 0 := by
  show shapeCast S16x2048 (broadcast S16x2048 (Scalar.ofBits (F := Ideal) .f32 0x00000000#32)) shapeCasts_S16x2048_S16x2048 j = 0
  rw [shapeCast_self]
  exact Ideal.ofBits_zero_f32

/-- At every block it adds the block's product to the accumulator. -/
theorem pay0_2 (v3 : Vec Ideal S16x1024 .f32) (v6 : Vec Ideal S1024x2048 .f32) (v8 : Vec Ideal S16x2048 .f32)
    (b : Fin 16) (n : Fin 2048) :
    k0_pay2 v3 v6 v8 (ix2 b n) = v8 (ix2 b n) + ∑ k : Fin 1024, v3 (ix2 b k) * v6 (ix2 k n) := by
  show shapeCast S16x2048 (addf v8 (matmul dot_S16x1024_S1024x2048_S16x2048_1_0_0_1_n_n none
    (truncf .bf16 (shapeCast S16x1024 v3 shapeCasts_S16x1024_S16x1024) bitsLt_bf16_f32) (truncf .bf16 v6 bitsLt_bf16_f32)
    (constant (F := Ideal) S16x2048 .f32 0x00000000#32))) shapeCasts_S16x2048_S16x2048 (ix2 b n) = _
  rw [shapeCast_self, addf_apply, matmul_zero_apply, shapeCast_self]
  rfl

/-! ## The external product's body -/

/-- At its first contraction block the body takes the incoming partial current as the accumulator. -/
theorem pay1_1 (v16 : Vec Ideal S16x2048 .f32) : k1_pay1 v16 = v16 := by
  show shapeCast S16x2048 (shapeCast S16x2048 v16 shapeCasts_S16x2048_S16x2048) shapeCasts_S16x2048_S16x2048 = v16
  rw [shapeCast_self, shapeCast_self]

/-- At every block it adds the block's product to the accumulator. -/
theorem pay1_2 (v3 : Vec Ideal S16x1024 .f32) (v5 : Vec Ideal S1024x2048 .f32) (v7 : Vec Ideal S16x2048 .f32)
    (b : Fin 16) (n : Fin 2048) :
    k1_pay2 v3 v5 v7 (ix2 b n) = v7 (ix2 b n) + ∑ k : Fin 1024, v3 (ix2 b k) * v5 (ix2 k n) := by
  show shapeCast S16x2048 (addf v7 (matmul dot_S16x1024_S1024x2048_S16x2048_1_0_0_1_n_n none
    (truncf .bf16 v3 bitsLt_bf16_f32) (truncf .bf16 v5 bitsLt_bf16_f32)
    (constant (F := Ideal) S16x2048 .f32 0x00000000#32))) shapeCasts_S16x2048_S16x2048 (ix2 b n) = _
  rw [shapeCast_self, addf_apply, matmul_zero_apply]
  rfl

/-! ## The elementwise body -/

/-- The spikes of a block. -/
theorem pay2_1 (v0 v1 : Vec Ideal S16x2048 .f32) (j : S16x2048.Idx) :
    k2_pay1 v0 v1 j = Cert.Spec.spikeS (v0 j) (v1 j) := by
  unfold k2_pay1
  exact Cert.Spec.sitofp_extui_bit_apply _ natLt_1_32 j

/-- The adaptation of a block. -/
theorem pay2_2 (v0 v1 : Vec Ideal S16x2048 .f32) (j : S16x2048.Idx) :
    k2_pay2 v0 v1 j = Cert.Spec.anewS (v0 j) (v1 j) := by
  show Ideal.ofBits .f32 0x3F7EB923#32 * v1 j + k2_pay1 v0 v1 j = _
  rw [pay2_1]
  rfl

/-- The potential of a block, from the block of the current. -/
theorem pay2_3 (v0 v1 v17 : Vec Ideal S16x2048 .f32) (j : S16x2048.Idx) :
    k2_pay3 v0 v1 v17 j = Cert.Spec.vnewS (v0 j) (v1 j) (v17 j) := by
  show Ideal.ofBits .f32 0x3F7383C6#32 * v0 j * (Ideal.ofBits .f32 0x3F800000#32 - k2_pay1 v0 v1 j)
    + Ideal.ofBits .f32 0x3D47C3A8#32 * shapeCast S16x2048 v17 shapeCasts_S16x2048_S16x2048 j = _
  rw [pay2_1, shapeCast_self]
  rfl

/-- The spikes of a block as the one-row block written to the front of the delay line. -/
theorem pay2_4 (v0 v1 : Vec Ideal S16x2048 .f32) (b : Fin 16) (n : Fin 2048) :
    k2_pay4 v0 v1 (ix3 (0 : Fin 1) b n) = Cert.Spec.spikeS (v0 (ix2 b n)) (v1 (ix2 b n)) := by
  unfold k2_pay4
  exact (shapeCast_ab_1ab_apply (k2_pay1 v0 v1) shapeCasts_S16x2048_S1x16x2048 0 b n).trans (pay2_1 v0 v1 (ix2 b n))

end Cert.KernelIdeal.Val

end
-- ==== Proof.KI.V0.lean ====
/-
  The first blocked product, as values over the extended reals. Each control case of the body leaves the
  accumulator at its previous contents plus one block product (from the zero block at the first step); so after
  reduction step k of column block n the accumulator holds the sum of the first k + 1 block products of the entries
  of that column block, and the last step writes the full sum of 8192 terms into the output block. The output
  blocks of the four column blocks cover the 16 × 8192 result.
-/
import proofs.«112072_j23527830848088_1_alg».proof.Proof.KI.R0
import proofs.«112072_j23527830848088_1_alg».proof.Proof.KI.Pay
import proofs.«112072_j23527830848088_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx Idealize.SL.Sem
open Idealize.ShloMosaic.Pipeline (Dat)
open scoped BigOperators

/-! ## What each control case leaves, as values -/

section Pieces
variable {F : FTy → Type} [FloatOps F]

theorem hz2 : (![0, 0] : Fin 2 → Nat) = fun _ => 0 := funext fun a => by fin_cases a <;> rfl

/-- A first step leaves the first product added to the zero block. -/
theorem sout0_A_eq (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : cond0_0 i) (hc1 : ¬cond0_1 i)
    (x0 : Vec F S16x1024 .f32) (x1 : Vec F S1024x2048 .f32) :
    sout0_A c i arg2 harg2 arg3 harg3 arg4 harg4 arg5 harg5 hc0 hc1 x0 x1 = k0_pay2 x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S16x2048) hz2, View.readCov_unit_zero (S := S16x2048) _ hz2]
  simp only [View.readAt_eq_ld, harg2.read_unread, harg3.read_unread, harg5.read_unread, View.ld_unit_zero (S := S16x1024) hz2, View.ld_unit_zero (S := S1024x2048) hz2, View.ld_unit_zero (S := S16x2048) hz2]

/-- A middle step adds its product to what it found. -/
theorem sout0_B_eq (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : ¬cond0_1 i)
    (x0 : Vec F S16x1024 .f32) (x1 : Vec F S1024x2048 .f32) (xs0 : Vec F S16x2048 .f32) :
    sout0_B c i arg2 harg2 arg3 harg3 arg4 harg4 arg5 harg5 hc0 hc1 x0 x1 xs0 = k0_pay2 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S16x1024) hz2, View.ld_unit_zero (S := S1024x2048) hz2, View.ld_unit_zero (S := S16x2048) hz2]

/-- So does the last step, -/
theorem sout0_C_eq (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) :
    sout0_C c i arg2 harg2 arg3 harg3 arg4 harg4 arg5 harg5 hc0 hc1 x0 x1 xs0 = k0_pay2 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S16x1024) hz2, View.ld_unit_zero (S := S1024x2048) hz2, View.ld_unit_zero (S := S16x2048) hz2]

/-- and it copies that sum into the output block's buffer. -/
theorem out0_C_eq (c : Dev nD) (i : grid0.Coords) (arg2 : Memref sig .tc .vmem S16x1024 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (hc0 : ¬cond0_0 i) (hc1 : cond0_1 i)
    (x0 : Vec F S16x1024 .f32) (x1 : Vec F S1024x2048 .f32) (xs0 : Vec F S16x2048 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2, View.readCov_unit_zero (S := S16x2048) _ hz2]
  simp only [View.readAt_eq_ld, harg2.read_unread, harg3.read_unread, harg5.read_unread, View.ld_unit_zero (S := S16x1024) hz2, View.ld_unit_zero (S := S1024x2048) hz2, View.ld_unit_zero (S := S16x2048) hz2]

end Pieces

variable (V : (c : Dev nD) → (b : Ref sig .tc) → Buf (Elt Ideal) ((c : Thread nD τ).loc b))

/-! ## The arrays and blocks, at their literal types -/

abbrev xarr0 (c : Dev nD) : Vec Ideal S16x8192 .f32 := V c main_v1
abbrev warr0 (c : Dev nD) : Vec Ideal S8192x8192 .f32 := V c main_arg4
abbrev xblk0 (c : Dev nD) (t : Fin cfg0.N) : Vec Ideal S16x1024 .f32 := iblk0 V c 0 t
abbrev wblk0 (c : Dev nD) (t : Fin cfg0.N) : Vec Ideal S1024x2048 .f32 := iblk0 V c 1 t

/-! ## The blocks the windows read -/

theorem idx0_0 : ∀ t : Fin cfg0.N, win0_0.index t 0 = 0 ∧ win0_0.index t 1 = t.val % 8 :=
  (by decide +kernel : ∀ t : Fin grid0.N, win0_0.index t 0 = 0 ∧ win0_0.index t 1 = t.val % 8)
theorem idx0_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem idx0_2 : ∀ t : Fin cfg0.N, win0_2.index t 0 = 0 ∧ win0_2.index t 1 = t.val / 8 :=
  (by decide +kernel : ∀ t : Fin grid0.N, win0_2.index t 0 = 0 ∧ win0_2.index t 1 = t.val / 8)

/-- The left operand's block at step k holds columns 1024·k … of its 16 rows. -/
theorem iblk0_0_apply (c : Dev nD) (t : Fin cfg0.N) (b : Fin 16) (kk : Fin 1024) :
    xblk0 V c t (ix2 b kk)
      = xarr0 V c (ix2 b (⟨1024 * (t.val % 8) + kk.val, by omega⟩ : Fin 8192)) := by
  show iblk0 V c 0 t (ix2 b kk) = V c main_v1 _
  unfold iblk0
  rw [View.read_apply]
  show V c main_v1 _ = V c main_v1 _
  congr 1
  funext a
  apply Fin.ext
  match a with
  | ⟨0, _⟩ => show win0_0.index t 0 * 16 + 1 * b.val = b.val; rw [(idx0_0 t).1]; omega
  | ⟨1, _⟩ => show win0_0.index t 1 * 1024 + 1 * kk.val = 1024 * (t.val % 8) + kk.val; rw [(idx0_0 t).2]; omega

/-- The right operand's block at (k, n) holds rows 1024·k … and columns 2048·n … . -/
theorem iblk0_1_apply (c : Dev nD) (t : Fin cfg0.N) (kk : Fin 1024) (x : Fin 2048) :
    wblk0 V c t (ix2 kk x)
      = warr0 V c (ix2 (⟨1024 * (t.val % 8) + kk.val, by omega⟩ : Fin 8192) (⟨2048 * (t.val / 8) + x.val, by have := t.isLt; have : cfg0.N = 32 := N_0; omega⟩ : Fin 8192)) := by
  show iblk0 V c 1 t (ix2 kk x) = V c main_arg4 _
  unfold iblk0
  rw [View.read_apply]
  show V c main_arg4 _ = V c main_arg4 _
  congr 1
  funext a
  apply Fin.ext
  match a with
  | ⟨0, _⟩ => show win0_1.index t 0 * 1024 + 1 * kk.val = 1024 * (t.val % 8) + kk.val; rw [(idx0_1 t).1]; omega
  | ⟨1, _⟩ => show win0_1.index t 1 * 2048 + 1 * x.val = 2048 * (t.val / 8) + x.val; rw [(idx0_1 t).2]; omega

/-! ## The accumulator is the running sum of block products -/

/-- The terms of the product at row `b` and column `col`, as a sequence (zero past the end). -/
def term0 (c : Dev nD) (b : Fin 16) (col : Fin 8192) : ℕ → EReal := fun k =>
  if h : k < 8192 then xarr0 V c (ix2 b ⟨k, h⟩) * warr0 V c (ix2 ⟨k, h⟩ col) else 0

theorem col_lt (n : ℕ) (hn : n < cfg0.N) (x : Fin 2048) : 2048 * (n / 8) + x.val < 8192 := by
  have : cfg0.N = 32 := N_0; omega

/-- One step's product, at an entry of the block, is one block of the sum. -/
theorem step0 (c : Dev nD) (t : Fin cfg0.N) (b : Fin 16) (x : Fin 2048) :
    ∑ kk : Fin 1024, xblk0 V c t (ix2 b kk) * wblk0 V c t (ix2 kk x)
      = Cert.Spec.blockSum 1024 (term0 V c b ⟨2048 * (t.val / 8) + x.val, col_lt t.val t.isLt x⟩) (t.val % 8) := by
  unfold Cert.Spec.blockSum
  refine Finset.sum_congr rfl fun kk _ => ?_
  rw [iblk0_0_apply, iblk0_1_apply]
  unfold term0
  have hk : t.val % 8 * 1024 + kk.val < 8192 := by omega
  rw [dif_pos hk]
  have e : (⟨1024 * (t.val % 8) + kk.val, by omega⟩ : Fin 8192) = ⟨t.val % 8 * 1024 + kk.val, hk⟩ := Fin.ext (by show 1024 * (t.val % 8) + kk.val = t.val % 8 * 1024 + kk.val; omega)
  rw [e]

/-- After position `n` (reduction step `n % 8` of column block `n / 8`) the accumulator holds the sum of the first
    `n % 8 + 1` block products. -/
theorem acc0_eq (c : Dev nD) : ∀ (n : ℕ) (hn : n < cfg0.N) (b : Fin 16) (x : Fin 2048),
    (outsAt0 V c n hn).2 (ix2 b x)
      = Cert.Spec.accFrom 0 (Cert.Spec.blockSum 1024 (term0 V c b ⟨2048 * (n / 8) + x.val, col_lt n hn x⟩)) (n % 8 + 1) := by
  intro n
  induction n with
  | zero =>
    intro hn b x
    rw [outsAt0_A V c ⟨0, hn⟩ rfl (by show ¬(0 % 8 = 7); decide), sout0_A_eq]
    show k0_pay2 (xblk0 V c ⟨0, hn⟩) (wblk0 V c ⟨0, hn⟩) (k0_pay1 (F := Ideal)) (ix2 b x) = _
    rw [pay0_2, pay0_1, step0]
    rfl
  | succ n ih =>
    intro hn b x
    by_cases h0 : (n + 1) % 8 = 0
    · have h1 : ¬(n + 1) % 8 = 7 := by omega
      rw [outsAt0_A V c ⟨n + 1, hn⟩ h0 h1, sout0_A_eq]
      show k0_pay2 (xblk0 V c ⟨n + 1, hn⟩) (wblk0 V c ⟨n + 1, hn⟩) (k0_pay1 (F := Ideal)) (ix2 b x) = _
      rw [pay0_2, pay0_1, step0]
      show (0 : EReal) + _ = _
      rw [h0]
      rfl
    · have hprev : (outsAt0 V c n (Nat.lt_of_succ_lt hn)).2 (ix2 b x)
          = Cert.Spec.accFrom 0 (Cert.Spec.blockSum 1024 (term0 V c b ⟨2048 * ((n + 1) / 8) + x.val, col_lt (n + 1) hn x⟩)) ((n + 1) % 8) := by
        rw [ih (Nat.lt_of_succ_lt hn) b x]
        have e1 : n / 8 = (n + 1) / 8 := by omega
        have e2 : n % 8 + 1 = (n + 1) % 8 := by omega
        simp only [e1, e2]
      by_cases h1 : (n + 1) % 8 = 7
      · rw [outsAt0_C V c ⟨n + 1, hn⟩ h0 h1, sout0_C_eq]
        show k0_pay2 (xblk0 V c ⟨n + 1, hn⟩) (wblk0 V c ⟨n + 1, hn⟩) (outsAt0 V c n _).2 (ix2 b x) = _
        rw [pay0_2, step0]
        show (outsAt0 V c n _).2 (ix2 b x) + _ = _
        rw [hprev]
        rfl
      · rw [outsAt0_B V c ⟨n + 1, hn⟩ h0 h1, sout0_B_eq]
        show k0_pay2 (xblk0 V c ⟨n + 1, hn⟩) (wblk0 V c ⟨n + 1, hn⟩) (outsAt0 V c n _).2 (ix2 b x) = _
        rw [pay0_2, step0]
        show (outsAt0 V c n _).2 (ix2 b x) + _ = _
        rw [hprev]
        rfl

/-! ## The product array -/

/-- The 16 × 8192 by 8192 × 8192 product, entry by entry. -/
def prod0 (x : Vec Ideal S16x8192 .f32) (w : Vec Ideal S8192x8192 .f32) : Vec Ideal S16x8192 .f32 :=
  fun i => ∑ k : Fin 8192, x (ix2 (i 0) k) * w (ix2 k (i 1))

/-- Eight blocks of 1024 terms are the whole sum of 8192. -/
theorem term0_sum (c : Dev nD) (b : Fin 16) (col : Fin 8192) :
    ∑ j ∈ Finset.range 8, Cert.Spec.blockSum 1024 (term0 V c b col) j = ∑ k : Fin 8192, xarr0 V c (ix2 b k) * warr0 V c (ix2 k col) := by
  rw [Cert.Spec.sum_blocks 1024 8]
  show ∑ k : Fin 8192, term0 V c b col k.val = _
  refine Finset.sum_congr rfl fun k _ => ?_
  unfold term0
  rw [dif_pos k.isLt]

/-- At the last step of a column block the output block's buffer holds the product's entries of that block. -/
theorem out0_last (c : Dev nD) (t : Fin cfg0.N) (h7 : t.val % 8 = 7) (b : Fin 16) (x : Fin 2048) :
    (outsAt0 V c t.val t.isLt).1 (ix2 b x)
      = prod0 (xarr0 V c) (warr0 V c) (ix2 b (⟨2048 * (t.val / 8) + x.val, col_lt t.val t.isLt x⟩ : Fin 8192)) := by
  have h0 : ¬t.val % 8 = 0 := by omega
  have e : (outsAt0 V c t.val t.isLt).1 = (outsAt0 V c t.val t.isLt).2 := by
    rw [outsAt0_C V c t h0 h7, out0_C_eq, sout0_C_eq]
  rw [e, acc0_eq V c t.val t.isLt b x, h7, Cert.Spec.accFrom_eq, zero_add, term0_sum]
  rfl

/-- What a last step writes back is its block of the product. -/
theorem flushed0_eq (c : Dev nD) (t : Fin cfg0.N) (hf : (cfg0.win 2).flush t = true) :
    (dat0 V c).flushed 2 t = ((cfg0.win 2).blk t).view.read (Elt Ideal) (prod0 (xarr0 V c) (warr0 V c)) := by
  have h7 : t.val % 8 = 7 := (flush0_2 t).mp hf
  show (cfg0.win 2).cut (grid0.coords t) ((dat0 V c).after 2 t) = _
  rw [after0_2]
  funext (j : S16x2048.Idx)
  obtain ⟨b, x, rfl⟩ : ∃ (b : Fin 16) (x : Fin 2048), j = ix2 b x := ⟨j 0, j 1, eq_ix2 j⟩
  show (outsAt0 V c t.val t.isLt).1 (ix2 b x) = prod0 (xarr0 V c) (warr0 V c) (((cfg0.win 2).blk t).view.emb (ix2 b x))
  rw [out0_last V c t h7 b x]
  congr 1
  funext a
  apply Fin.ext
  match a with
  | ⟨0, _⟩ => show b.val = win0_2.index t 0 * 16 + 1 * b.val; rw [(idx0_2 t).1]; omega
  | ⟨1, _⟩ => show 2048 * (t.val / 8) + x.val = win0_2.index t 1 * 2048 + 1 * x.val; rw [(idx0_2 t).2]; omega

theorem mem_blk0_2 (t : Fin cfg0.N) (i : S16x8192.Idx) :
    i ∈ ((cfg0.win 2).blk t).view.set ↔ ∀ a : Fin 2, win0_2.index t a * S16x2048.size a ≤ (i a).val ∧ (i a).val < win0_2.index t a * S16x2048.size a + S16x2048.size a := by
  show i ∈ ((View.whole main_v2).slice (win0_2.rect t)).set ↔ _
  rw [View.set_slice_whole, Rect.mem_set_unit]
  exact Iff.rfl

/-- After the region the first product's array holds the whole product: the last steps' blocks cover it. -/
theorem final0 (c : Dev nD) : (dat0 (F := Ideal) V c).arrAt 2 cfg0.N = prod0 (xarr0 V c) (warr0 V c) :=
  (dat0 V c).arrAt_eq_of_cover 2 (prod0 (xarr0 V c) (warr0 V c)) (fun t hf => flushed0_eq V c t hf) fun i => by
    have hi0 : (i 0).val < 16 := (i 0).isLt
    have hi1 : (i 1).val < 8192 := (i 1).isLt
    have hN : cfg0.N = 32 := N_0
    refine ⟨⟨8 * ((i 1).val / 2048) + 7, by omega⟩, (flush0_2 _).mpr (by show (8 * ((i 1).val / 2048) + 7) % 8 = 7; omega), ?_⟩
    rw [mem_blk0_2]
    intro a
    match a with
    | ⟨0, _⟩ =>
      show win0_2.index _ 0 * 16 ≤ (i 0).val ∧ (i 0).val < win0_2.index _ 0 * 16 + 16
      rw [(idx0_2 _).1]; omega
    | ⟨1, _⟩ =>
      show win0_2.index _ 1 * 2048 ≤ (i 1).val ∧ (i 1).val < win0_2.index _ 1 * 2048 + 2048
      rw [(idx0_2 _).2]
      show (8 * ((i 1).val / 2048) + 7) / 8 * 2048 ≤ (i 1).val ∧ (i 1).val < (8 * ((i 1).val / 2048) + 7) / 8 * 2048 + 2048
      omega

end Cert.KernelIdeal.Val

end
-- ==== Proof.KI.V1.lean ====
/-
  The second blocked product, as values over the extended reals. A first reduction step sets the accumulator to the
  carried block — the earlier product's entries of this column block — and adds the first block product; every later
  step adds one more block product to what it finds. So after reduction step k of column block n the accumulator
  holds the carried entries plus the sum of the first k + 1 block products, and the last step writes the carried
  entries plus the full sum of 4096 terms into the output block. The output blocks of the four column blocks cover
  the 16 × 8192 result.
-/
import proofs.«112072_j23527830848088_1_alg».proof.Proof.KI.R1
import proofs.«112072_j23527830848088_1_alg».proof.Proof.KI.Pay
import proofs.«112072_j23527830848088_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx Idealize.SL.Sem
open Idealize.ShloMosaic.Pipeline (Dat)
open scoped BigOperators

/-! ## What each control case leaves, as values -/

section Pieces
variable {F : FTy → Type} [FloatOps F]

theorem hz2' : (![0, 0] : Fin 2 → Nat) = fun _ => 0 := funext fun a => by fin_cases a <;> rfl

/-- A first step leaves the first product added to the carried block. -/
theorem sout1_A_eq (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : cond1_0 i) (hc1 : ¬cond1_1 i)
    (x0 : Vec F S16x2048 .f32) (x1 : Vec F S16x1024 .f32) (x2 : Vec F S1024x2048 .f32) :
    sout1_A_0 c i arg2 harg2 arg3 harg3 arg4 harg4 arg5 harg5 arg6 harg6 hc0 hc1 x0 x1 x2 = k1_pay2 x1 x2 (k1_pay1 x0) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S16x2048) hz2', View.readCov_unit_zero (S := S16x2048) _ hz2']
  simp only [View.readAt_eq_ld, harg2.read_unread, harg3.read_unread, harg4.read_unread, harg6.read_unread, View.ld_unit_zero (S := S16x1024) hz2', View.ld_unit_zero (S := S1024x2048) hz2', View.ld_unit_zero (S := S16x2048) hz2']

/-- A middle step adds its product to what it found. -/
theorem sout1_B_eq (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : ¬cond1_1 i)
    (x0 : Vec F S16x2048 .f32) (x1 : Vec F S16x1024 .f32) (x2 : Vec F S1024x2048 .f32) (xs0 : Vec F S16x2048 .f32) :
    sout1_B_0 c i arg2 harg2 arg3 harg3 arg4 harg4 arg5 harg5 arg6 harg6 hc0 hc1 x0 x1 x2 xs0 = k1_pay2 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hz2']
  simp only [View.readAt_eq_ld, harg2.read_unread, harg3.read_unread, harg4.read_unread, harg6.read_unread, View.ld_unit_zero (S := S16x1024) hz2', View.ld_unit_zero (S := S1024x2048) hz2', View.ld_unit_zero (S := S16x2048) hz2']

/-- So does the last step, -/
theorem sout1_C_eq (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) :
    sout1_C_0 c i arg2 harg2 arg3 harg3 arg4 harg4 arg5 harg5 arg6 harg6 hc0 hc1 x0 x1 x2 xs0 = k1_pay2 x1 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz2']
  simp only [View.readAt_eq_ld, harg2.read_unread, harg3.read_unread, harg4.read_unread, harg6.read_unread, View.ld_unit_zero (S := S16x1024) hz2', View.ld_unit_zero (S := S1024x2048) hz2', View.ld_unit_zero (S := S16x2048) hz2']

/-- and it copies that sum into the output block's buffer. -/
theorem out1_C_eq (c : Dev nD) (i : grid1.Coords) (arg2 : Memref sig .tc .vmem S16x2048 .f32) (harg2 : arg2.IsWhole) (arg3 : Memref sig .tc .vmem S16x1024 .f32) (harg3 : arg3.IsWhole) (arg4 : Memref sig .tc .vmem S1024x2048 .f32) (harg4 : arg4.IsWhole) (arg5 : Memref sig .tc .vmem S16x2048 .f32) (harg5 : arg5.IsWhole) (arg6 : Memref sig .tc .vmem S16x2048 .f32) (harg6 : arg6.IsWhole) (hc0 : ¬cond1_0 i) (hc1 : cond1_1 i)
    (x0 : Vec F S16x2048 .f32) (x1 : Vec F S16x1024 .f32) (x2 : Vec F S1024x2048 .f32) (xs0 : Vec F S16x2048 .f32) :
    out1_C_3 c i arg2 harg2 arg3 harg3 arg4 harg4 arg5 harg5 arg6 harg6 hc0 hc1 x0 x1 x2 xs0 = k1_pay2 x1 x2 xs0 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz2', View.readCov_unit_zero (S := S16x2048) _ hz2']
  simp only [View.readAt_eq_ld, harg2.read_unread, harg3.read_unread, harg4.read_unread, harg6.read_unread, View.ld_unit_zero (S := S16x1024) hz2', View.ld_unit_zero (S := S1024x2048) hz2', View.ld_unit_zero (S := S16x2048) hz2']

end Pieces

variable (V : (c : Dev nD) → (b : Ref sig .tc) → Buf (Elt Ideal) ((c : Thread nD τ).loc b))

/-! ## The arrays and blocks, at their literal types -/

abbrev cur1 (c : Dev nD) : Vec Ideal S16x8192 .f32 := V c main_v2
abbrev xarr1 (c : Dev nD) : Vec Ideal S16x4096 .f32 := V c main_arg3
abbrev warr1 (c : Dev nD) : Vec Ideal S4096x8192 .f32 := V c main_arg5
abbrev cblk1 (c : Dev nD) (t : Fin cfg1.N) : Vec Ideal S16x2048 .f32 := iblk1 V c 0 t
abbrev xblk1 (c : Dev nD) (t : Fin cfg1.N) : Vec Ideal S16x1024 .f32 := iblk1 V c 1 t
abbrev wblk1 (c : Dev nD) (t : Fin cfg1.N) : Vec Ideal S1024x2048 .f32 := iblk1 V c 2 t

/-! ## The blocks the windows read -/

theorem idx1_0 : ∀ t : Fin cfg1.N, win1_0.index t 0 = 0 ∧ win1_0.index t 1 = t.val / 4 :=
  (by decide +kernel : ∀ t : Fin grid1.N, win1_0.index t 0 = 0 ∧ win1_0.index t 1 = t.val / 4)
theorem idx1_1 : ∀ t : Fin cfg1.N, win1_1.index t 0 = 0 ∧ win1_1.index t 1 = t.val % 4 :=
  (by decide +kernel : ∀ t : Fin grid1.N, win1_1.index t 0 = 0 ∧ win1_1.index t 1 = t.val % 4)
theorem idx1_2 : ∀ t : Fin cfg1.N, win1_2.index t 0 = t.val % 4 ∧ win1_2.index t 1 = t.val / 4 :=
  (by decide +kernel : ∀ t : Fin grid1.N, win1_2.index t 0 = t.val % 4 ∧ win1_2.index t 1 = t.val / 4)
theorem idx1_3 : ∀ t : Fin cfg1.N, win1_3.index t 0 = 0 ∧ win1_3.index t 1 = t.val / 4 :=
  (by decide +kernel : ∀ t : Fin grid1.N, win1_3.index t 0 = 0 ∧ win1_3.index t 1 = t.val / 4)

theorem col1_lt (n : ℕ) (hn : n < cfg1.N) (x : Fin 2048) : 2048 * (n / 4) + x.val < 8192 := by
  have : cfg1.N = 16 := N_1; omega

/-- The carried block of column block n holds columns 2048·n … of the earlier product's 16 rows. -/
theorem iblk1_0_apply (c : Dev nD) (t : Fin cfg1.N) (b : Fin 16) (x : Fin 2048) :
    cblk1 V c t (ix2 b x)
      = cur1 V c (ix2 b (⟨2048 * (t.val / 4) + x.val, col1_lt t.val t.isLt x⟩ : Fin 8192)) := by
  show iblk1 V c 0 t (ix2 b x) = V c main_v2 _
  unfold iblk1
  rw [View.read_apply]
  show V c main_v2 _ = V c main_v2 _
  congr 1
  funext a
  apply Fin.ext
  match a with
  | ⟨0, _⟩ => show win1_0.index t 0 * 16 + 1 * b.val = b.val; rw [(idx1_0 t).1]; omega
  | ⟨1, _⟩ => show win1_0.index t 1 * 2048 + 1 * x.val = 2048 * (t.val / 4) + x.val; rw [(idx1_0 t).2]; omega

/-- The left operand's block at step k holds columns 1024·k … of its 16 rows. -/
theorem iblk1_1_apply (c : Dev nD) (t : Fin cfg1.N) (b : Fin 16) (kk : Fin 1024) :
    xblk1 V c t (ix2 b kk)
      = xarr1 V c (ix2 b (⟨1024 * (t.val % 4) + kk.val, by omega⟩ : Fin 4096)) := by
  show iblk1 V c 1 t (ix2 b kk) = V c main_arg3 _
  unfold iblk1
  rw [View.read_apply]
  show V c main_arg3 _ = V c main_arg3 _
  congr 1
  funext a
  apply Fin.ext
  match a with
  | ⟨0, _⟩ => show win1_1.index t 0 * 16 + 1 * b.val = b.val; rw [(idx1_1 t).1]; omega
  | ⟨1, _⟩ => show win1_1.index t 1 * 1024 + 1 * kk.val = 1024 * (t.val % 4) + kk.val; rw [(idx1_1 t).2]; omega

/-- The right operand's block at (k, n) holds rows 1024·k … and columns 2048·n … . -/
theorem iblk1_2_apply (c : Dev nD) (t : Fin cfg1.N) (kk : Fin 1024) (x : Fin 2048) :
    wblk1 V c t (ix2 kk x)
      = warr1 V c (ix2 (⟨1024 * (t.val % 4) + kk.val, by omega⟩ : Fin 4096) (⟨2048 * (t.val / 4) + x.val, col1_lt t.val t.isLt x⟩ : Fin 8192)) := by
  show iblk1 V c 2 t (ix2 kk x) = V c main_arg5 _
  unfold iblk1
  rw [View.read_apply]
  show V c main_arg5 _ = V c main_arg5 _
  congr 1
  funext a
  apply Fin.ext
  match a with
  | ⟨0, _⟩ => show win1_2.index t 0 * 1024 + 1 * kk.val = 1024 * (t.val % 4) + kk.val; rw [(idx1_2 t).1]; omega
  | ⟨1, _⟩ => show win1_2.index t 1 * 2048 + 1 * x.val = 2048 * (t.val / 4) + x.val; rw [(idx1_2 t).2]; omega

/-! ## The accumulator is the carried entry plus the running sum of block products -/

/-- The terms of the product at row `b` and column `col`, as a sequence (zero past the end). -/
def term1 (c : Dev nD) (b : Fin 16) (col : Fin 8192) : ℕ → EReal := fun k =>
  if h : k < 4096 then xarr1 V c (ix2 b ⟨k, h⟩) * warr1 V c (ix2 ⟨k, h⟩ col) else 0

/-- One step's product, at an entry of the block, is one block of the sum. -/
theorem step1 (c : Dev nD) (t : Fin cfg1.N) (b : Fin 16) (x : Fin 2048) :
    ∑ kk : Fin 1024, xblk1 V c t (ix2 b kk) * wblk1 V c t (ix2 kk x)
      = Cert.Spec.blockSum 1024 (term1 V c b ⟨2048 * (t.val / 4) + x.val, col1_lt t.val t.isLt x⟩) (t.val % 4) := by
  unfold Cert.Spec.blockSum
  refine Finset.sum_congr rfl fun kk _ => ?_
  rw [iblk1_1_apply, iblk1_2_apply]
  unfold term1
  have hk : t.val % 4 * 1024 + kk.val < 4096 := by omega
  rw [dif_pos hk]
  have e : (⟨1024 * (t.val % 4) + kk.val, by omega⟩ : Fin 4096) = ⟨t.val % 4 * 1024 + kk.val, hk⟩ := Fin.ext (by show 1024 * (t.val % 4) + kk.val = t.val % 4 * 1024 + kk.val; omega)
  rw [e]

/-- After position `n` (reduction step `n % 4` of column block `n / 4`) the accumulator holds the carried entry plus
    the sum of the first `n % 4 + 1` block products. -/
theorem acc1_eq (c : Dev nD) : ∀ (n : ℕ) (hn : n < cfg1.N) (b : Fin 16) (x : Fin 2048),
    (outsAt1 V c n hn).2 (ix2 b x)
      = Cert.Spec.accFrom (cur1 V c (ix2 b ⟨2048 * (n / 4) + x.val, col1_lt n hn x⟩))
          (Cert.Spec.blockSum 1024 (term1 V c b ⟨2048 * (n / 4) + x.val, col1_lt n hn x⟩)) (n % 4 + 1) := by
  intro n
  induction n with
  | zero =>
    intro hn b x
    rw [outsAt1_A V c ⟨0, hn⟩ rfl (by show ¬(0 % 4 = 3); decide), sout1_A_eq]
    show k1_pay2 (xblk1 V c ⟨0, hn⟩) (wblk1 V c ⟨0, hn⟩) (k1_pay1 (cblk1 V c ⟨0, hn⟩)) (ix2 b x) = _
    rw [pay1_2, pay1_1, step1, iblk1_0_apply]
    rfl
  | succ n ih =>
    intro hn b x
    by_cases h0 : (n + 1) % 4 = 0
    · have h1 : ¬(n + 1) % 4 = 3 := by omega
      rw [outsAt1_A V c ⟨n + 1, hn⟩ h0 h1, sout1_A_eq]
      show k1_pay2 (xblk1 V c ⟨n + 1, hn⟩) (wblk1 V c ⟨n + 1, hn⟩) (k1_pay1 (cblk1 V c ⟨n + 1, hn⟩)) (ix2 b x) = _
      rw [pay1_2, pay1_1, step1, iblk1_0_apply]
      show cur1 V c _ + _ = _
      rw [h0]
      rfl
    · have hprev : (outsAt1 V c n (Nat.lt_of_succ_lt hn)).2 (ix2 b x)
          = Cert.Spec.accFrom (cur1 V c (ix2 b ⟨2048 * ((n + 1) / 4) + x.val, col1_lt (n + 1) hn x⟩))
              (Cert.Spec.blockSum 1024 (term1 V c b ⟨2048 * ((n + 1) / 4) + x.val, col1_lt (n + 1) hn x⟩)) ((n + 1) % 4) := by
        rw [ih (Nat.lt_of_succ_lt hn) b x]
        have e1 : n / 4 = (n + 1) / 4 := by omega
        have e2 : n % 4 + 1 = (n + 1) % 4 := by omega
        simp only [e1, e2]
      by_cases h1 : (n + 1) % 4 = 3
      · rw [outsAt1_C V c ⟨n + 1, hn⟩ h0 h1, sout1_C_eq]
        show k1_pay2 (xblk1 V c ⟨n + 1, hn⟩) (wblk1 V c ⟨n + 1, hn⟩) (outsAt1 V c n _).2 (ix2 b x) = _
        rw [pay1_2, step1]
        show (outsAt1 V c n _).2 (ix2 b x) + _ = _
        rw [hprev]
        rfl
      · rw [outsAt1_B V c ⟨n + 1, hn⟩ h0 h1, sout1_B_eq]
        show k1_pay2 (xblk1 V c ⟨n + 1, hn⟩) (wblk1 V c ⟨n + 1, hn⟩) (outsAt1 V c n _).2 (ix2 b x) = _
        rw [pay1_2, step1]
        show (outsAt1 V c n _).2 (ix2 b x) + _ = _
        rw [hprev]
        rfl

/-! ## The product array -/

/-- The accumulated second product, entry by entry. -/
def prod1 (cur : Vec Ideal S16x8192 .f32) (x : Vec Ideal S16x4096 .f32) (w : Vec Ideal S4096x8192 .f32) : Vec Ideal S16x8192 .f32 :=
  fun i => cur i + ∑ k : Fin 4096, x (ix2 (i 0) k) * w (ix2 k (i 1))

/-- Four blocks of 1024 terms are the whole sum of 4096. -/
theorem term1_sum (c : Dev nD) (b : Fin 16) (col : Fin 8192) :
    ∑ j ∈ Finset.range 4, Cert.Spec.blockSum 1024 (term1 V c b col) j = ∑ k : Fin 4096, xarr1 V c (ix2 b k) * warr1 V c (ix2 k col) := by
  rw [Cert.Spec.sum_blocks 1024 4]
  show ∑ k : Fin 4096, term1 V c b col k.val = _
  refine Finset.sum_congr rfl fun k _ => ?_
  unfold term1
  rw [dif_pos k.isLt]

/-- At the last step of a column block the output block's buffer holds the accumulated product's entries of that
    block. -/
theorem out1_last (c : Dev nD) (t : Fin cfg1.N) (h3 : t.val % 4 = 3) (b : Fin 16) (x : Fin 2048) :
    (outsAt1 V c t.val t.isLt).1 (ix2 b x)
      = prod1 (cur1 V c) (xarr1 V c) (warr1 V c) (ix2 b (⟨2048 * (t.val / 4) + x.val, col1_lt t.val t.isLt x⟩ : Fin 8192)) := by
  have h0 : ¬t.val % 4 = 0 := by omega
  have e : (outsAt1 V c t.val t.isLt).1 = (outsAt1 V c t.val t.isLt).2 := by
    rw [outsAt1_C V c t h0 h3, out1_C_eq, sout1_C_eq]
  rw [e, acc1_eq V c t.val t.isLt b x, h3, Cert.Spec.accFrom_eq, term1_sum]
  rfl

/-- What a last step writes back is its block of the accumulated product. -/
theorem flushed1_eq (c : Dev nD) (t : Fin cfg1.N) (hf : (cfg1.win 3).flush t = true) :
    (dat1 V c).flushed 3 t = ((cfg1.win 3).blk t).view.read (Elt Ideal) (prod1 (cur1 V c) (xarr1 V c) (warr1 V c)) := by
  have h3 : t.val % 4 = 3 := (flush1_3 t).mp hf
  show (cfg1.win 3).cut (grid1.coords t) ((dat1 V c).after 3 t) = _
  rw [after1_3]
  funext (j : S16x2048.Idx)
  obtain ⟨b, x, rfl⟩ : ∃ (b : Fin 16) (x : Fin 2048), j = ix2 b x := ⟨j 0, j 1, eq_ix2 j⟩
  show (outsAt1 V c t.val t.isLt).1 (ix2 b x) = prod1 (cur1 V c) (xarr1 V c) (warr1 V c) (((cfg1.win 3).blk t).view.emb (ix2 b x))
  rw [out1_last V c t h3 b x]
  congr 1
  funext a
  apply Fin.ext
  match a with
  | ⟨0, _⟩ => show b.val = win1_3.index t 0 * 16 + 1 * b.val; rw [(idx1_3 t).1]; omega
  | ⟨1, _⟩ => show 2048 * (t.val / 4) + x.val = win1_3.index t 1 * 2048 + 1 * x.val; rw [(idx1_3 t).2]; omega

theorem mem_blk1_3 (t : Fin cfg1.N) (i : S16x8192.Idx) :
    i ∈ ((cfg1.win 3).blk t).view.set ↔ ∀ a : Fin 2, win1_3.index t a * S16x2048.size a ≤ (i a).val ∧ (i a).val < win1_3.index t a * S16x2048.size a + S16x2048.size a := by
  show i ∈ ((View.whole main_v3).slice (win1_3.rect t)).set ↔ _
  rw [View.set_slice_whole, Rect.mem_set_unit]
  exact Iff.rfl

/-- After the region the second product's array holds the whole accumulated product: the last steps' blocks cover
    it. -/
theorem final1 (c : Dev nD) : (dat1 (F := Ideal) V c).arrAt 3 cfg1.N = prod1 (cur1 V c) (xarr1 V c) (warr1 V c) :=
  (dat1 V c).arrAt_eq_of_cover 3 (prod1 (cur1 V c) (xarr1 V c) (warr1 V c)) (fun t hf => flushed1_eq V c t hf) fun i => by
    have hi0 : (i 0).val < 16 := (i 0).isLt
    have hi1 : (i 1).val < 8192 := (i 1).isLt
    have hN : cfg1.N = 16 := N_1
    refine ⟨⟨4 * ((i 1).val / 2048) + 3, by omega⟩, (flush1_3 _).mpr (by show (4 * ((i 1).val / 2048) + 3) % 4 = 3; omega), ?_⟩
    rw [mem_blk1_3]
    intro a
    match a with
    | ⟨0, _⟩ =>
      show win1_3.index _ 0 * 16 ≤ (i 0).val ∧ (i 0).val < win1_3.index _ 0 * 16 + 16
      rw [(idx1_3 _).1]; omega
    | ⟨1, _⟩ =>
      show win1_3.index _ 1 * 2048 ≤ (i 1).val ∧ (i 1).val < win1_3.index _ 1 * 2048 + 2048
      rw [(idx1_3 _).2]
      show (4 * ((i 1).val / 2048) + 3) / 4 * 2048 ≤ (i 1).val ∧ (i 1).val < (4 * ((i 1).val / 2048) + 3) / 4 * 2048 + 2048
      omega

end Cert.KernelIdeal.Val

end
-- ==== Proof.KI.V2.lean ====
/-
  The pointwise update, as values over the extended reals. Point t of the grid reads columns 2048·t … of each input
  array, so what it writes back is, entry by entry, the specification's function of the whole arrays at the same
  columns: the spike indicator, the new potential from the current, the new adaptation; and for the delay line the
  spikes in row 0 and the old row d in row d + 1. The four points' blocks cover each output array.
-/
import proofs.«112072_j23527830848088_1_alg».proof.Proof.KI.R2
import proofs.«112072_j23527830848088_1_alg».proof.Proof.KI.Pay
import proofs.«112072_j23527830848088_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # Region 2's outputs as functions of the arrays the region finds

Each of the four output arrays, after the four points' write-backs, is one function of the input arrays index by
index: point `t` writes back columns `2048·t … 2048·t + 2047`, and the four column blocks tile the 8192 columns. -/

theorem hz2_r2 : (![0, 0] : Fin 2 → Nat) = fun _ => 0 := funext fun a => by fin_cases a <;> rfl

/-- Every window of the region, at point `t`, is at block `t` along the last axis and at block 0 along the others. -/
theorem idx2 : ∀ t : Fin cfg2.N,
    win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = t.val
    ∧ win2_4.index t (0 : Fin 2) = 0 ∧ win2_4.index t (1 : Fin 2) = t.val
    ∧ win2_5.index t (0 : Fin 2) = 0 ∧ win2_5.index t (1 : Fin 2) = t.val
    ∧ win2_6.index t (0 : Fin 2) = 0 ∧ win2_6.index t (1 : Fin 2) = t.val
    ∧ win2_3.index t (0 : Fin 3) = 0 ∧ win2_3.index t (1 : Fin 3) = 0 ∧ win2_3.index t (2 : Fin 3) = t.val
    ∧ win2_7.index t (0 : Fin 3) = 0 ∧ win2_7.index t (1 : Fin 3) = 0 ∧ win2_7.index t (2 : Fin 3) = t.val :=
  (by decide +kernel : ∀ t : Fin grid2.N, _)

/-! ## The input blocks as columns of their arrays -/

/-- Input window 0's block at point `t`, at row `b` and column `n`, is its array at row `b` and column `2048·t + n`. -/
theorem iblk2_0_apply (c : Dev nD) (t : Fin cfg2.N) (b : Fin 16) (n : Fin 2048) (k : Fin 8192) (hk : k.val = 2048 * t.val + n.val) :
    (iblk2 V c 0 t : Vec Ideal S16x2048 .f32) (ix2 b n) = (V c main_arg0 : Cert.Spec.S16x8192.Idx → EReal) (ix2 b k) := by
  have e := idx2 t
  unfold iblk2
  show V c main_arg0 (((cfg2.win 0).blk t).view.emb (ix2 b n)) = V c main_arg0 (ix2 b k)
  refine congrArg _ (funext fun a => Fin.ext ?_)
  match a with
  | ⟨0, _⟩ => show win2_0.index t (0 : Fin 2) * 16 + 1 * b.val = b.val; omega
  | ⟨1, _⟩ => show win2_0.index t (1 : Fin 2) * 2048 + 1 * n.val = k.val; omega

/-- Input window 1's block at point `t`, at row `b` and column `n`, is its array at row `b` and column `2048·t + n`. -/
theorem iblk2_1_apply (c : Dev nD) (t : Fin cfg2.N) (b : Fin 16) (n : Fin 2048) (k : Fin 8192) (hk : k.val = 2048 * t.val + n.val) :
    (iblk2 V c 1 t : Vec Ideal S16x2048 .f32) (ix2 b n) = (V c main_arg1 : Cert.Spec.S16x8192.Idx → EReal) (ix2 b k) := by
  have e := idx2 t
  unfold iblk2
  show V c main_arg1 (((cfg2.win 1).blk t).view.emb (ix2 b n)) = V c main_arg1 (ix2 b k)
  refine congrArg _ (funext fun a => Fin.ext ?_)
  match a with
  | ⟨0, _⟩ => show win2_1.index t (0 : Fin 2) * 16 + 1 * b.val = b.val; omega
  | ⟨1, _⟩ => show win2_1.index t (1 : Fin 2) * 2048 + 1 * n.val = k.val; omega

/-- Input window 2's block at point `t`, at row `b` and column `n`, is its array at row `b` and column `2048·t + n`. -/
theorem iblk2_2_apply (c : Dev nD) (t : Fin cfg2.N) (b : Fin 16) (n : Fin 2048) (k : Fin 8192) (hk : k.val = 2048 * t.val + n.val) :
    (iblk2 V c 2 t : Vec Ideal S16x2048 .f32) (ix2 b n) = (V c main_v3 : Cert.Spec.S16x8192.Idx → EReal) (ix2 b k) := by
  have e := idx2 t
  unfold iblk2
  show V c main_v3 (((cfg2.win 2).blk t).view.emb (ix2 b n)) = V c main_v3 (ix2 b k)
  refine congrArg _ (funext fun a => Fin.ext ?_)
  match a with
  | ⟨0, _⟩ => show win2_2.index t (0 : Fin 2) * 16 + 1 * b.val = b.val; omega
  | ⟨1, _⟩ => show win2_2.index t (1 : Fin 2) * 2048 + 1 * n.val = k.val; omega

/-- Input window 3's block at point `t`, at slab `d`, row `b` and column `n`, is its array at slab `d`, row `b` and column `2048·t + n`. -/
theorem iblk2_3_apply (c : Dev nD) (t : Fin cfg2.N) (d : Fin 8) (b : Fin 16) (n : Fin 2048) (k : Fin 8192) (hk : k.val = 2048 * t.val + n.val) :
    (iblk2 V c 3 t : Vec Ideal S8x16x2048 .f32) (ix3 d b n) = (V c main_arg2 : Cert.Spec.S8x16x8192.Idx → EReal) (ix3 d b k) := by
  have e := idx2 t
  unfold iblk2
  show V c main_arg2 (((cfg2.win 3).blk t).view.emb (ix3 d b n)) = V c main_arg2 (ix3 d b k)
  refine congrArg _ (funext fun a => Fin.ext ?_)
  match a with
  | ⟨0, _⟩ => show win2_3.index t (0 : Fin 3) * 8 + 1 * d.val = d.val; omega
  | ⟨1, _⟩ => show win2_3.index t (1 : Fin 3) * 16 + 1 * b.val = b.val; omega
  | ⟨2, _⟩ => show win2_3.index t (2 : Fin 3) * 2048 + 1 * n.val = k.val; omega

/-! ## Output 4 -/

/-- Entry by entry, the indicator payload of two blocks that are columns `2048·T …` of `a0` and `a1` is the spike array at those columns. -/
theorem spikes_of_cols (x0 x1 : Vec Ideal S16x2048 .f32) (a0 a1 : Cert.Spec.S16x8192.Idx → EReal) (T : ℕ)
    (h0 : ∀ (b : Fin 16) (n : Fin 2048) (k : Fin 8192), k.val = 2048 * T + n.val → x0 (ix2 b n) = a0 (ix2 b k))
    (h1 : ∀ (b : Fin 16) (n : Fin 2048) (k : Fin 8192), k.val = 2048 * T + n.val → x1 (ix2 b n) = a1 (ix2 b k))
    (b : Fin 16) (n : Fin 2048) (k : Fin 8192) (hk : k.val = 2048 * T + n.val) :
    k2_pay1 x0 x1 (ix2 b n) = Cert.Spec.XG a0 a1 (ix2 b k) := by
  rw [pay2_1, h0 b n k hk, h1 b n k hk]
  rfl

/-- What point `t` writes back to output 4's array is block `t` of that one function of the input arrays. -/
theorem flushed2_4_eq (c : Dev nD) (t : Fin cfg2.N) :
    (dat2 (F := Ideal) V c).flushed 4 t
      = ((cfg2.win 4).blk t).view.read (Elt Ideal) (Cert.Spec.XG (V c main_arg0) (V c main_arg1)) := by
  show (cfg2.win 4).cut (grid2.coords t) ((dat2 V c).after 4 t) = _
  rw [after2_4]
  unfold out2_4
  rw [View.canon_unit_zero hz2_r2]
  simp only [View.ld_unit_zero (S := S16x2048) hz2_r2]
  have e := idx2 t
  have ht : t.val < 4 := Nat.lt_of_lt_of_eq t.isLt N_2
  funext j
  have hj0 : (j 0).val < 16 := (j 0).isLt
  have hj1 : (j 1).val < 2048 := (j 1).isLt
  have key := spikes_of_cols (iblk2 V c 0 t) (iblk2 V c 1 t) (V c main_arg0) (V c main_arg1) t.val
    (iblk2_0_apply V c t) (iblk2_1_apply V c t) ⟨(j 0).val, hj0⟩ ⟨(j 1).val, hj1⟩ ⟨2048 * t.val + (j 1).val, by omega⟩ rfl
  have e1 : win2_4.xinj (grid2.coords t) j = ix2 (⟨(j 0).val, hj0⟩ : Fin 16) (⟨(j 1).val, hj1⟩ : Fin 2048) :=
    funext fun a => Fin.ext (by match a with | ⟨0, _⟩ => rfl | ⟨1, _⟩ => rfl)
  have e2 : ix2 (⟨(j 0).val, hj0⟩ : Fin 16) (⟨2048 * t.val + (j 1).val, by omega⟩ : Fin 8192) = ((cfg2.win 4).blk t).view.emb j :=
    funext fun a => Fin.ext (by
      match a with
      | ⟨0, _⟩ => show (j 0).val = win2_4.index t (0 : Fin 2) * 16 + 1 * (j 0).val; omega
      | ⟨1, _⟩ => show 2048 * t.val + (j 1).val = win2_4.index t (1 : Fin 2) * 2048 + 1 * (j 1).val; omega)
  exact (congrArg (k2_pay1 (iblk2 V c 0 t) (iblk2 V c 1 t)) e1).trans (key.trans (congrArg (Cert.Spec.XG (V c main_arg0) (V c main_arg1)) e2))

/-- An index of the array is in point `t`'s block iff each coordinate is in the block's range on its axis. -/
theorem mem_blk2_4 (t : Fin cfg2.N) (i : S16x8192.Idx) :
    i ∈ ((cfg2.win 4).blk t).view.set ↔ ∀ a : Fin 2, win2_4.index t a * S16x2048.size a ≤ (i a).val ∧ (i a).val < win2_4.index t a * S16x2048.size a + S16x2048.size a := by
  show i ∈ ((View.whole main_v4_0).slice (win2_4.rect t)).set ↔ _
  rw [View.set_slice_whole, Rect.mem_set_unit]
  exact Iff.rfl

/-- Column `j` is in the block of point `j / 2048`: the four blocks cover the array. -/
theorem covered2_4 (i : S16x8192.Idx) : ∃ t : Fin cfg2.N, (cfg2.win 4).flush t = true ∧ i ∈ ((cfg2.win 4).blk t).view.set := by
  have hi0 : (i 0).val < 16 := (i 0).isLt
  have hi1 : (i 1).val < 8192 := (i 1).isLt
  obtain ⟨t, ht⟩ : ∃ t : Fin cfg2.N, t.val = (i 1).val / 2048 :=
    ⟨⟨(i 1).val / 2048, by rw [show cfg2.N = 4 from N_2]; omega⟩, rfl⟩
  have e := idx2 t
  refine ⟨t, flush2_4 t, ?_⟩
  rw [mem_blk2_4]
  intro a
  match a with
  | ⟨0, _⟩ => show win2_4.index t (0 : Fin 2) * 16 ≤ (i 0).val ∧ (i 0).val < win2_4.index t (0 : Fin 2) * 16 + 16; omega
  | ⟨1, _⟩ => show win2_4.index t (1 : Fin 2) * 2048 ≤ (i 1).val ∧ (i 1).val < win2_4.index t (1 : Fin 2) * 2048 + 2048; omega

/-- So output 4's array ends holding that function of the input arrays. -/
theorem final2_4 (c : Dev nD) : (dat2 (F := Ideal) V c).arrAt 4 cfg2.N = Cert.Spec.XG (V c main_arg0) (V c main_arg1) :=
  (dat2 V c).arrAt_eq_of_cover 4 (Cert.Spec.XG (V c main_arg0) (V c main_arg1)) (fun t _ => flushed2_4_eq V c t) covered2_4

/-! ## Output 5 -/

/-- Entry by entry, the potential payload of three blocks that are columns `2048·T …` of `a0`, `a1` and `cur` is the potential array at those columns. -/
theorem potential_of_cols (x0 x1 x2 : Vec Ideal S16x2048 .f32) (a0 a1 cur : Cert.Spec.S16x8192.Idx → EReal) (T : ℕ)
    (h0 : ∀ (b : Fin 16) (n : Fin 2048) (k : Fin 8192), k.val = 2048 * T + n.val → x0 (ix2 b n) = a0 (ix2 b k))
    (h1 : ∀ (b : Fin 16) (n : Fin 2048) (k : Fin 8192), k.val = 2048 * T + n.val → x1 (ix2 b n) = a1 (ix2 b k))
    (h2 : ∀ (b : Fin 16) (n : Fin 2048) (k : Fin 8192), k.val = 2048 * T + n.val → x2 (ix2 b n) = cur (ix2 b k))
    (b : Fin 16) (n : Fin 2048) (k : Fin 8192) (hk : k.val = 2048 * T + n.val) :
    k2_pay3 x0 x1 x2 (ix2 b n) = Cert.Spec.VG a0 a1 cur (ix2 b k) := by
  rw [pay2_3, h0 b n k hk, h1 b n k hk, h2 b n k hk]
  rfl

/-- What point `t` writes back to output 5's array is block `t` of that one function of the input arrays. -/
theorem flushed2_5_eq (c : Dev nD) (t : Fin cfg2.N) :
    (dat2 (F := Ideal) V c).flushed 5 t
      = ((cfg2.win 5).blk t).view.read (Elt Ideal) (Cert.Spec.VG (V c main_arg0) (V c main_arg1) (V c main_v3)) := by
  show (cfg2.win 5).cut (grid2.coords t) ((dat2 V c).after 5 t) = _
  rw [after2_5]
  unfold out2_5
  rw [View.canon_unit_zero hz2_r2]
  simp only [View.ld_unit_zero (S := S16x2048) hz2_r2]
  have e := idx2 t
  have ht : t.val < 4 := Nat.lt_of_lt_of_eq t.isLt N_2
  funext j
  have hj0 : (j 0).val < 16 := (j 0).isLt
  have hj1 : (j 1).val < 2048 := (j 1).isLt
  have key := potential_of_cols (iblk2 V c 0 t) (iblk2 V c 1 t) (iblk2 V c 2 t) (V c main_arg0) (V c main_arg1) (V c main_v3) t.val
    (iblk2_0_apply V c t) (iblk2_1_apply V c t) (iblk2_2_apply V c t) ⟨(j 0).val, hj0⟩ ⟨(j 1).val, hj1⟩ ⟨2048 * t.val + (j 1).val, by omega⟩ rfl
  have e1 : win2_5.xinj (grid2.coords t) j = ix2 (⟨(j 0).val, hj0⟩ : Fin 16) (⟨(j 1).val, hj1⟩ : Fin 2048) :=
    funext fun a => Fin.ext (by match a with | ⟨0, _⟩ => rfl | ⟨1, _⟩ => rfl)
  have e2 : ix2 (⟨(j 0).val, hj0⟩ : Fin 16) (⟨2048 * t.val + (j 1).val, by omega⟩ : Fin 8192) = ((cfg2.win 5).blk t).view.emb j :=
    funext fun a => Fin.ext (by
      match a with
      | ⟨0, _⟩ => show (j 0).val = win2_5.index t (0 : Fin 2) * 16 + 1 * (j 0).val; omega
      | ⟨1, _⟩ => show 2048 * t.val + (j 1).val = win2_5.index t (1 : Fin 2) * 2048 + 1 * (j 1).val; omega)
  exact (congrArg (k2_pay3 (iblk2 V c 0 t) (iblk2 V c 1 t) (iblk2 V c 2 t)) e1).trans (key.trans (congrArg (Cert.Spec.VG (V c main_arg0) (V c main_arg1) (V c main_v3)) e2))

/-- An index of the array is in point `t`'s block iff each coordinate is in the block's range on its axis. -/
theorem mem_blk2_5 (t : Fin cfg2.N) (i : S16x8192.Idx) :
    i ∈ ((cfg2.win 5).blk t).view.set ↔ ∀ a : Fin 2, win2_5.index t a * S16x2048.size a ≤ (i a).val ∧ (i a).val < win2_5.index t a * S16x2048.size a + S16x2048.size a := by
  show i ∈ ((View.whole main_v4_1).slice (win2_5.rect t)).set ↔ _
  rw [View.set_slice_whole, Rect.mem_set_unit]
  exact Iff.rfl

/-- Column `j` is in the block of point `j / 2048`: the four blocks cover the array. -/
theorem covered2_5 (i : S16x8192.Idx) : ∃ t : Fin cfg2.N, (cfg2.win 5).flush t = true ∧ i ∈ ((cfg2.win 5).blk t).view.set := by
  have hi0 : (i 0).val < 16 := (i 0).isLt
  have hi1 : (i 1).val < 8192 := (i 1).isLt
  obtain ⟨t, ht⟩ : ∃ t : Fin cfg2.N, t.val = (i 1).val / 2048 :=
    ⟨⟨(i 1).val / 2048, by rw [show cfg2.N = 4 from N_2]; omega⟩, rfl⟩
  have e := idx2 t
  refine ⟨t, flush2_5 t, ?_⟩
  rw [mem_blk2_5]
  intro a
  match a with
  | ⟨0, _⟩ => show win2_5.index t (0 : Fin 2) * 16 ≤ (i 0).val ∧ (i 0).val < win2_5.index t (0 : Fin 2) * 16 + 16; omega
  | ⟨1, _⟩ => show win2_5.index t (1 : Fin 2) * 2048 ≤ (i 1).val ∧ (i 1).val < win2_5.index t (1 : Fin 2) * 2048 + 2048; omega

/-- So output 5's array ends holding that function of the input arrays. -/
theorem final2_5 (c : Dev nD) : (dat2 (F := Ideal) V c).arrAt 5 cfg2.N = Cert.Spec.VG (V c main_arg0) (V c main_arg1) (V c main_v3) :=
  (dat2 V c).arrAt_eq_of_cover 5 (Cert.Spec.VG (V c main_arg0) (V c main_arg1) (V c main_v3)) (fun t _ => flushed2_5_eq V c t) covered2_5

/-! ## Output 6 -/

/-- Entry by entry, the adaptation payload of two blocks that are columns `2048·T …` of `a0` and `a1` is the adaptation array at those columns. -/
theorem adapt_of_cols (x0 x1 : Vec Ideal S16x2048 .f32) (a0 a1 : Cert.Spec.S16x8192.Idx → EReal) (T : ℕ)
    (h0 : ∀ (b : Fin 16) (n : Fin 2048) (k : Fin 8192), k.val = 2048 * T + n.val → x0 (ix2 b n) = a0 (ix2 b k))
    (h1 : ∀ (b : Fin 16) (n : Fin 2048) (k : Fin 8192), k.val = 2048 * T + n.val → x1 (ix2 b n) = a1 (ix2 b k))
    (b : Fin 16) (n : Fin 2048) (k : Fin 8192) (hk : k.val = 2048 * T + n.val) :
    k2_pay2 x0 x1 (ix2 b n) = Cert.Spec.AG a0 a1 (ix2 b k) := by
  rw [pay2_2, h0 b n k hk, h1 b n k hk]
  rfl

/-- What point `t` writes back to output 6's array is block `t` of that one function of the input arrays. -/
theorem flushed2_6_eq (c : Dev nD) (t : Fin cfg2.N) :
    (dat2 (F := Ideal) V c).flushed 6 t
      = ((cfg2.win 6).blk t).view.read (Elt Ideal) (Cert.Spec.AG (V c main_arg0) (V c main_arg1)) := by
  show (cfg2.win 6).cut (grid2.coords t) ((dat2 V c).after 6 t) = _
  rw [after2_6]
  unfold out2_6
  rw [View.canon_unit_zero hz2_r2]
  simp only [View.ld_unit_zero (S := S16x2048) hz2_r2]
  have e := idx2 t
  have ht : t.val < 4 := Nat.lt_of_lt_of_eq t.isLt N_2
  funext j
  have hj0 : (j 0).val < 16 := (j 0).isLt
  have hj1 : (j 1).val < 2048 := (j 1).isLt
  have key := adapt_of_cols (iblk2 V c 0 t) (iblk2 V c 1 t) (V c main_arg0) (V c main_arg1) t.val
    (iblk2_0_apply V c t) (iblk2_1_apply V c t) ⟨(j 0).val, hj0⟩ ⟨(j 1).val, hj1⟩ ⟨2048 * t.val + (j 1).val, by omega⟩ rfl
  have e1 : win2_6.xinj (grid2.coords t) j = ix2 (⟨(j 0).val, hj0⟩ : Fin 16) (⟨(j 1).val, hj1⟩ : Fin 2048) :=
    funext fun a => Fin.ext (by match a with | ⟨0, _⟩ => rfl | ⟨1, _⟩ => rfl)
  have e2 : ix2 (⟨(j 0).val, hj0⟩ : Fin 16) (⟨2048 * t.val + (j 1).val, by omega⟩ : Fin 8192) = ((cfg2.win 6).blk t).view.emb j :=
    funext fun a => Fin.ext (by
      match a with
      | ⟨0, _⟩ => show (j 0).val = win2_6.index t (0 : Fin 2) * 16 + 1 * (j 0).val; omega
      | ⟨1, _⟩ => show 2048 * t.val + (j 1).val = win2_6.index t (1 : Fin 2) * 2048 + 1 * (j 1).val; omega)
  exact (congrArg (k2_pay2 (iblk2 V c 0 t) (iblk2 V c 1 t)) e1).trans (key.trans (congrArg (Cert.Spec.AG (V c main_arg0) (V c main_arg1)) e2))

/-- An index of the array is in point `t`'s block iff each coordinate is in the block's range on its axis. -/
theorem mem_blk2_6 (t : Fin cfg2.N) (i : S16x8192.Idx) :
    i ∈ ((cfg2.win 6).blk t).view.set ↔ ∀ a : Fin 2, win2_6.index t a * S16x2048.size a ≤ (i a).val ∧ (i a).val < win2_6.index t a * S16x2048.size a + S16x2048.size a := by
  show i ∈ ((View.whole main_v4_2).slice (win2_6.rect t)).set ↔ _
  rw [View.set_slice_whole, Rect.mem_set_unit]
  exact Iff.rfl

/-- Column `j` is in the block of point `j / 2048`: the four blocks cover the array. -/
theorem covered2_6 (i : S16x8192.Idx) : ∃ t : Fin cfg2.N, (cfg2.win 6).flush t = true ∧ i ∈ ((cfg2.win 6).blk t).view.set := by
  have hi0 : (i 0).val < 16 := (i 0).isLt
  have hi1 : (i 1).val < 8192 := (i 1).isLt
  obtain ⟨t, ht⟩ : ∃ t : Fin cfg2.N, t.val = (i 1).val / 2048 :=
    ⟨⟨(i 1).val / 2048, by rw [show cfg2.N = 4 from N_2]; omega⟩, rfl⟩
  have e := idx2 t
  refine ⟨t, flush2_6 t, ?_⟩
  rw [mem_blk2_6]
  intro a
  match a with
  | ⟨0, _⟩ => show win2_6.index t (0 : Fin 2) * 16 ≤ (i 0).val ∧ (i 0).val < win2_6.index t (0 : Fin 2) * 16 + 16; omega
  | ⟨1, _⟩ => show win2_6.index t (1 : Fin 2) * 2048 ≤ (i 1).val ∧ (i 1).val < win2_6.index t (1 : Fin 2) * 2048 + 2048; omega

/-- So output 6's array ends holding that function of the input arrays. -/
theorem final2_6 (c : Dev nD) : (dat2 (F := Ideal) V c).arrAt 6 cfg2.N = Cert.Spec.AG (V c main_arg0) (V c main_arg1) :=
  (dat2 V c).arrAt_eq_of_cover 6 (Cert.Spec.AG (V c main_arg0) (V c main_arg1)) (fun t _ => flushed2_6_eq V c t) covered2_6

/-! ## Output 7

The body fills the [8,16,2048] buffer in two pieces: rows 1..7 from rows 0..6 of the fourth input block (the later
store), and row 0 with the indicator (the earlier store). -/

/-- Row 0 of what the body leaves: the indicator of the first two blocks. The index is outside the later piece
    (whose rows start at 1) and is the earlier piece's own index `(0, b, n)`. -/
theorem out2_7_zero (x0 x1 : Vec Ideal S16x2048 .f32) (x3 : Vec Ideal S8x16x2048 .f32) (b : Fin 16) (n : Fin 2048) :
    out2_7 x0 x1 x3 (ix3 (0 : Fin 8) b n) = Cert.Spec.spikeS (x0 (ix2 b n)) (x1 (ix2 b n)) := by
  unfold out2_7
  simp only [View.ld_unit_zero (S := S16x2048) hz2_r2]
  have hnot : ix3 (0 : Fin 8) b n ∉ (r2_hi).set := fun h => by
    rw [Rect.mem_set_unit] at h
    have h0 : (1 : ℕ) ≤ 0 := (h 0).1
    omega
  have hemb : ix3 (0 : Fin 8) b n = r2_row0.emb (ix3 (0 : Fin 1) b n) :=
    funext fun a => Fin.ext (by
      match a with
      | ⟨0, _⟩ => rfl
      | ⟨1, _⟩ => show b.val = 0 + 1 * b.val; omega
      | ⟨2, _⟩ => show n.val = 0 + 1 * n.val; omega)
  refine (View.canon_cons_of_not_mem (⟨r2_hi, View.ld x3 r2_lo⟩ : View.Piece (Elt Ideal) S8x16x2048 .f32) _ hnot).trans ?_
  refine (congrArg _ hemb).trans ?_
  refine (View.canon_cons_emb r2_row0 _ _ (ix3 (0 : Fin 1) b n)).trans ?_
  exact pay2_4 x0 x1 b n

/-- Row `d + 1` of what the body leaves: row `d` of the fourth input block. The index is the later piece's own
    index `(d, b, n)`, and the load it stores read rows 0..6 at that index. -/
theorem out2_7_succ (x0 x1 : Vec Ideal S16x2048 .f32) (x3 : Vec Ideal S8x16x2048 .f32) (d : Fin 7) (b : Fin 16) (n : Fin 2048) :
    out2_7 x0 x1 x3 (ix3 (⟨d.val + 1, by omega⟩ : Fin 8) b n) = x3 (ix3 (⟨d.val, by omega⟩ : Fin 8) b n) := by
  unfold out2_7
  have hemb : ix3 (⟨d.val + 1, by omega⟩ : Fin 8) b n = r2_hi.emb (ix3 d b n) :=
    funext fun a => Fin.ext (by
      match a with
      | ⟨0, _⟩ => show d.val + 1 = 1 + 1 * d.val; omega
      | ⟨1, _⟩ => show b.val = 0 + 1 * b.val; omega
      | ⟨2, _⟩ => show n.val = 0 + 1 * n.val; omega)
  refine (congrArg _ hemb).trans ?_
  refine (View.canon_cons_emb r2_hi _ _ (ix3 d b n)).trans ?_
  refine congrArg x3 (funext fun a => Fin.ext ?_)
  match a with
  | ⟨0, _⟩ => show 0 + 1 * d.val = d.val; omega
  | ⟨1, _⟩ => show 0 + 1 * b.val = b.val; omega
  | ⟨2, _⟩ => show 0 + 1 * n.val = n.val; omega

/-- Entry by entry, what the body leaves from three blocks that are columns `2048·T …` of `a0`, `a1` and `a2` is
    the new delay line at those columns: the spikes in row 0, the old row `d` in row `d + 1`. -/
theorem delay_of_cols (x0 x1 : Vec Ideal S16x2048 .f32) (x3 : Vec Ideal S8x16x2048 .f32)
    (a0 a1 : Cert.Spec.S16x8192.Idx → EReal) (a2 : Cert.Spec.S8x16x8192.Idx → EReal) (T : ℕ)
    (h0 : ∀ (b : Fin 16) (n : Fin 2048) (k : Fin 8192), k.val = 2048 * T + n.val → x0 (ix2 b n) = a0 (ix2 b k))
    (h1 : ∀ (b : Fin 16) (n : Fin 2048) (k : Fin 8192), k.val = 2048 * T + n.val → x1 (ix2 b n) = a1 (ix2 b k))
    (h3 : ∀ (d : Fin 8) (b : Fin 16) (n : Fin 2048) (k : Fin 8192), k.val = 2048 * T + n.val → x3 (ix3 d b n) = a2 (ix3 d b k))
    (d : Fin 8) (b : Fin 16) (n : Fin 2048) (k : Fin 8192) (hk : k.val = 2048 * T + n.val) :
    out2_7 x0 x1 x3 (ix3 d b n) = Cert.Spec.XdG a0 a1 a2 (ix3 d b k) := by
  obtain ⟨d, hd⟩ := d
  cases d with
  | zero =>
    exact (out2_7_zero x0 x1 x3 b n).trans
      ((congrArg₂ Cert.Spec.spikeS (h0 b n k hk) (h1 b n k hk)).trans (Cert.Spec.XdG_zero a0 a1 a2 b k).symm)
  | succ d' =>
    exact (out2_7_succ x0 x1 x3 ⟨d', by omega⟩ b n).trans
      ((h3 ⟨d', by omega⟩ b n k hk).trans (Cert.Spec.XdG_succ a0 a1 a2 ⟨d', by omega⟩ b k).symm)

/-- What point `t` writes back to output 7's array is block `t` of the new delay line of the input arrays. -/
theorem flushed2_7_eq (c : Dev nD) (t : Fin cfg2.N) :
    (dat2 (F := Ideal) V c).flushed 7 t
      = ((cfg2.win 7).blk t).view.read (Elt Ideal) (Cert.Spec.XdG (V c main_arg0) (V c main_arg1) (V c main_arg2)) := by
  show (cfg2.win 7).cut (grid2.coords t) ((dat2 V c).after 7 t) = _
  rw [after2_7]
  have e := idx2 t
  have ht : t.val < 4 := Nat.lt_of_lt_of_eq t.isLt N_2
  funext j
  have hj0 : (j 0).val < 8 := (j 0).isLt
  have hj1 : (j 1).val < 16 := (j 1).isLt
  have hj2 : (j 2).val < 2048 := (j 2).isLt
  have key := delay_of_cols (iblk2 V c 0 t) (iblk2 V c 1 t) (iblk2 V c 3 t) (V c main_arg0) (V c main_arg1) (V c main_arg2) t.val
    (iblk2_0_apply V c t) (iblk2_1_apply V c t) (iblk2_3_apply V c t)
    ⟨(j 0).val, hj0⟩ ⟨(j 1).val, hj1⟩ ⟨(j 2).val, hj2⟩ ⟨2048 * t.val + (j 2).val, by omega⟩ rfl
  have e1 : win2_7.xinj (grid2.coords t) j = ix3 (⟨(j 0).val, hj0⟩ : Fin 8) (⟨(j 1).val, hj1⟩ : Fin 16) (⟨(j 2).val, hj2⟩ : Fin 2048) :=
    funext fun a => Fin.ext (by match a with | ⟨0, _⟩ => rfl | ⟨1, _⟩ => rfl | ⟨2, _⟩ => rfl)
  have e2 : ix3 (⟨(j 0).val, hj0⟩ : Fin 8) (⟨(j 1).val, hj1⟩ : Fin 16) (⟨2048 * t.val + (j 2).val, by omega⟩ : Fin 8192) = ((cfg2.win 7).blk t).view.emb j :=
    funext fun a => Fin.ext (by
      match a with
      | ⟨0, _⟩ => show (j 0).val = win2_7.index t (0 : Fin 3) * 8 + 1 * (j 0).val; omega
      | ⟨1, _⟩ => show (j 1).val = win2_7.index t (1 : Fin 3) * 16 + 1 * (j 1).val; omega
      | ⟨2, _⟩ => show 2048 * t.val + (j 2).val = win2_7.index t (2 : Fin 3) * 2048 + 1 * (j 2).val; omega)
  exact (congrArg (out2_7 (iblk2 V c 0 t) (iblk2 V c 1 t) (iblk2 V c 3 t)) e1).trans
    (key.trans (congrArg (Cert.Spec.XdG (V c main_arg0) (V c main_arg1) (V c main_arg2)) e2))

/-- An index of the array is in point `t`'s block iff each coordinate is in the block's range on its axis. -/
theorem mem_blk2_7 (t : Fin cfg2.N) (i : S8x16x8192.Idx) :
    i ∈ ((cfg2.win 7).blk t).view.set ↔ ∀ a : Fin 3, win2_7.index t a * S8x16x2048.size a ≤ (i a).val ∧ (i a).val < win2_7.index t a * S8x16x2048.size a + S8x16x2048.size a := by
  show i ∈ ((View.whole main_v4_3).slice (win2_7.rect t)).set ↔ _
  rw [View.set_slice_whole, Rect.mem_set_unit]
  exact Iff.rfl

/-- Column `j` is in the block of point `j / 2048`: the four blocks cover the array. -/
theorem covered2_7 (i : S8x16x8192.Idx) : ∃ t : Fin cfg2.N, (cfg2.win 7).flush t = true ∧ i ∈ ((cfg2.win 7).blk t).view.set := by
  have hi0 : (i 0).val < 8 := (i 0).isLt
  have hi1 : (i 1).val < 16 := (i 1).isLt
  have hi2 : (i 2).val < 8192 := (i 2).isLt
  obtain ⟨t, ht⟩ : ∃ t : Fin cfg2.N, t.val = (i 2).val / 2048 :=
    ⟨⟨(i 2).val / 2048, by rw [show cfg2.N = 4 from N_2]; omega⟩, rfl⟩
  have e := idx2 t
  refine ⟨t, flush2_7 t, ?_⟩
  rw [mem_blk2_7]
  intro a
  match a with
  | ⟨0, _⟩ => show win2_7.index t (0 : Fin 3) * 8 ≤ (i 0).val ∧ (i 0).val < win2_7.index t (0 : Fin 3) * 8 + 8; omega
  | ⟨1, _⟩ => show win2_7.index t (1 : Fin 3) * 16 ≤ (i 1).val ∧ (i 1).val < win2_7.index t (1 : Fin 3) * 16 + 16; omega
  | ⟨2, _⟩ => show win2_7.index t (2 : Fin 3) * 2048 ≤ (i 2).val ∧ (i 2).val < win2_7.index t (2 : Fin 3) * 2048 + 2048; omega

/-- So output 7's array ends holding the new delay line of the input arrays. -/
theorem final2_7 (c : Dev nD) : (dat2 (F := Ideal) V c).arrAt 7 cfg2.N = Cert.Spec.XdG (V c main_arg0) (V c main_arg1) (V c main_arg2) :=
  (dat2 V c).arrAt_eq_of_cover 7 (Cert.Spec.XdG (V c main_arg0) (V c main_arg1) (V c main_arg2)) (fun t _ => flushed2_7_eq V c t) covered2_7

end Cert.KernelIdeal.Val

end
-- ==== Proof.KI.Host.lean ====
/-
  The host operations around the kernel's three regions, at the extended reals.

  Before the first region the program cuts row 7 out of the delay line, a [1, 16, 8192] slice, and lays it flat as a
  [16, 8192] array: entry (b, k) of the result is entry (7, b, k) of the delay line. Between the two matrix products
  it copies the partial current into a second buffer and leaves the first as it was.
-/
import proofs.«112072_j23527830848088_1_alg».proof.Proof.Gen.KernelIdeal.Launch
import proofs.«112072_j23527830848088_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Idealize.SL.Sem

/-- Row 7 of the delay line, laid flat: entry (b, k) is entry (7, b, k). -/
theorem row7_apply (x2 : Vec Ideal S8x16x8192 .f32) (b : Fin 16) (k : Fin 8192) :
    (shapeCast S16x8192 (extractStridedSlice S1x16x8192 ![7, 0, 0] x2 slices_S8x16x8192_S1x16x8192_7_0_0)
      shapeCasts_S1x16x8192_S16x8192 : Vec Ideal S16x8192 .f32) (ix2 b k) = x2 (ix3 (7 : Fin 8) b k) := by
  rw [shapeCast_1ab_ab_apply]
  exact extractStridedSlice_apply ![7, 0, 0] x2 slices_S8x16x8192_S1x16x8192_7_0_0 (ix3 (0 : Fin 1) b k)
    (ix3 (7 : Fin 8) b k) (fun a => match a with
      | ⟨0, _⟩ => rfl
      | ⟨1, _⟩ => by show b.val = 0 + b.val; omega
      | ⟨2, _⟩ => by show k.val = 0 + k.val; omega)

/-- What the two host operations leave in main_v1, from any valuation W of the buffers. -/
theorem after_hostOps0_v1 (W : Valuation τ sig (Elt Ideal)) :
    StableHlo.after (hostOps0 (F := Ideal)) W (Proc.devRef .tc main_v1)
      = shapeCast S16x8192 (extractStridedSlice S1x16x8192 ![7, 0, 0] (W (Proc.devRef .tc main_arg2))
          slices_S8x16x8192_S1x16x8192_7_0_0) shapeCasts_S1x16x8192_S16x8192 := by
  show StableHlo.after hostOps0 _ (Proc.devRef .tc main_v1) = _
  after_results
  rfl

/-- The copy between the two products: main_v3 becomes main_v2, main_v2 is kept. -/
theorem after_hostOps1_v2 (W : Valuation τ sig (Elt Ideal)) :
    StableHlo.after (hostOps1 (F := Ideal)) W (Proc.devRef .tc main_v2) = W (Proc.devRef .tc main_v2) := by
  show StableHlo.after hostOps1 _ (Proc.devRef .tc main_v2) = _
  after_results

end Cert.KernelIdeal.Val

end
-- ==== Proof.KI.Final.lean ====
/-
  The four results, as functions of the six argument arrays, over the extended reals: the contents of every buffer
  are followed back from the end of the run through the three regions and the host operations to the launch memory.
  The current is the first product (row 7 of the delay line, laid flat, through the recurrent weights) plus the
  second (the external input through its weights); the pointwise update then gives the spikes, the potential, the
  adaptation and the shifted delay line.
-/
import proofs.«112072_j23527830848088_1_alg».proof.Proof.KI.Run
import proofs.«112072_j23527830848088_1_alg».proof.Proof.KI.V0
import proofs.«112072_j23527830848088_1_alg».proof.Proof.KI.V1
import proofs.«112072_j23527830848088_1_alg».proof.Proof.KI.V2
import proofs.«112072_j23527830848088_1_alg».proof.Proof.KI.Host
import proofs.«112072_j23527830848088_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The arguments, at each region's entry -/

theorem V4_arg0 (c : Dev nD) : V4 m ρ c main_arg0 = m ((c : Thread nD τ).loc main_arg0) :=
  ((W5_arr m ρ c 0).trans (((dat2 (V4 m ρ) c).arrAt_in 0 rfl _).trans (A_eq2 (V4 m ρ) c 0))).symm.trans (W5_main_arg0 m ρ c)
theorem V4_arg1 (c : Dev nD) : V4 m ρ c main_arg1 = m ((c : Thread nD τ).loc main_arg1) :=
  ((W5_arr m ρ c 1).trans (((dat2 (V4 m ρ) c).arrAt_in 1 rfl _).trans (A_eq2 (V4 m ρ) c 1))).symm.trans (W5_main_arg1 m ρ c)
theorem V4_arg2 (c : Dev nD) : V4 m ρ c main_arg2 = m ((c : Thread nD τ).loc main_arg2) :=
  ((W5_arr m ρ c 3).trans (((dat2 (V4 m ρ) c).arrAt_in 3 rfl _).trans (A_eq2 (V4 m ρ) c 3))).symm.trans (W5_main_arg2 m ρ c)
theorem V3_arg3 (c : Dev nD) : V3 m ρ c main_arg3 = m ((c : Thread nD τ).loc main_arg3) :=
  ((W4_arr m ρ c 1).trans (((dat1 (V3 m ρ) c).arrAt_in 1 rfl _).trans (A_eq1 (V3 m ρ) c 1))).symm.trans ((W5_of_ne m ρ c main_arg3 (by decide)).symm.trans (W5_main_arg3 m ρ c))
theorem V3_arg5 (c : Dev nD) : V3 m ρ c main_arg5 = m ((c : Thread nD τ).loc main_arg5) :=
  ((W4_arr m ρ c 2).trans (((dat1 (V3 m ρ) c).arrAt_in 2 rfl _).trans (A_eq1 (V3 m ρ) c 2))).symm.trans ((W5_of_ne m ρ c main_arg5 (by decide)).symm.trans (W5_main_arg5 m ρ c))
theorem V1_arg4 (c : Dev nD) : V1 m ρ c main_arg4 = m ((c : Thread nD τ).loc main_arg4) :=
  StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The intermediate arrays -/

/-- Row 7 of the delay line, laid flat, is what the first product reads. -/
theorem V1_v1 (c : Dev nD) (b : Fin 16) (k : Fin 8192) :
    xarr0 (V1 m ρ) c (ix2 b k) = (m ((c : Thread nD τ).loc main_arg2) : Vec Ideal S8x16x8192 .f32) (ix3 (7 : Fin 8) b k) := by
  show StableHlo.after (hostOps0 (F := Ideal)) (W0 m ρ c) (Proc.devRef .tc main_v1) (ix2 b k) = _
  rw [after_hostOps0_v1]
  exact row7_apply _ b k

/-- The second product reads the first product's result as its starting value. -/
theorem V3_v2 (c : Dev nD) : cur1 (V3 m ρ) c = prod0 (xarr0 (V1 m ρ) c) (warr0 (V1 m ρ) c) := by
  show StableHlo.after (hostOps1 (F := Ideal)) (W2 m ρ c) (Proc.devRef .tc main_v2) = _
  rw [after_hostOps1_v2]
  exact (W2_arr m ρ c 2).trans (final0 (V1 m ρ) c)

/-- The current the pointwise update reads. -/
theorem V4_v3 (c : Dev nD) :
    (V4 m ρ c main_v3 : Vec Ideal S16x8192 .f32)
      = Cert.Spec.CurG (m ((c : Thread nD τ).loc main_arg2)) (m ((c : Thread nD τ).loc main_arg3)) (m ((c : Thread nD τ).loc main_arg4)) (m ((c : Thread nD τ).loc main_arg5)) := by
  refine ((W4_arr m ρ c 3).trans (final1 (V3 m ρ) c)).trans ?_
  funext i
  obtain ⟨b, n, rfl⟩ : ∃ (b : Fin 16) (n : Fin 8192), i = ix2 b n := ⟨i 0, i 1, eq_ix2 i⟩
  unfold prod1 Cert.Spec.CurG
  rw [V3_v2]
  unfold prod0
  refine congrArg₂ (· + ·) (Finset.sum_congr rfl fun k _ => ?_) (Finset.sum_congr rfl fun k _ => ?_)
  · exact congrArg₂ (· * ·) (V1_v1 m ρ c b k) (congrFun (V1_arg4 m ρ c) _)
  · exact congrArg₂ (· * ·) (congrFun (V3_arg3 m ρ c) _) (congrFun (V3_arg5 m ρ c) _)

/-! ## The results -/

theorem W5_v4_0 (c : Dev nD) :
    W5 m ρ c (Proc.devRef .tc main_v4_0) = Cert.Spec.XG (m ((c : Thread nD τ).loc main_arg0)) (m ((c : Thread nD τ).loc main_arg1)) := by
  refine ((W5_arr m ρ c 4).trans (final2_4 (V4 m ρ) c)).trans ?_
  rw [V4_arg0, V4_arg1]

theorem W5_v4_1 (c : Dev nD) :
    W5 m ρ c (Proc.devRef .tc main_v4_1) = Cert.Spec.VG (m ((c : Thread nD τ).loc main_arg0)) (m ((c : Thread nD τ).loc main_arg1))
      (Cert.Spec.CurG (m ((c : Thread nD τ).loc main_arg2)) (m ((c : Thread nD τ).loc main_arg3)) (m ((c : Thread nD τ).loc main_arg4)) (m ((c : Thread nD τ).loc main_arg5))) := by
  refine ((W5_arr m ρ c 5).trans (final2_5 (V4 m ρ) c)).trans ?_
  rw [V4_arg0, V4_arg1, V4_v3]

theorem W5_v4_2 (c : Dev nD) :
    W5 m ρ c (Proc.devRef .tc main_v4_2) = Cert.Spec.AG (m ((c : Thread nD τ).loc main_arg0)) (m ((c : Thread nD τ).loc main_arg1)) := by
  refine ((W5_arr m ρ c 6).trans (final2_6 (V4 m ρ) c)).trans ?_
  rw [V4_arg0, V4_arg1]

theorem W5_v4_3 (c : Dev nD) :
    W5 m ρ c (Proc.devRef .tc main_v4_3) = Cert.Spec.XdG (m ((c : Thread nD τ).loc main_arg0)) (m ((c : Thread nD τ).loc main_arg1)) (m ((c : Thread nD τ).loc main_arg2)) := by
  refine ((W5_arr m ρ c 7).trans (final2_7 (V4 m ρ) c)).trans ?_
  rw [V4_arg0, V4_arg1, V4_arg2]

/-- The run, read at the results and the arguments. -/
theorem run_values : θ_run defs (onTc (τ := τ) (main (F := Ideal))) ⟨m, fun _ => 0, ρ⟩ (fun r => ∀ c : Dev nD,
      r.2.mem ((c.tc : Thread nD τ).loc main_v4_0) = Cert.Spec.XG (m ((c : Thread nD τ).loc main_arg0)) (m ((c : Thread nD τ).loc main_arg1))
      ∧ r.2.mem ((c.tc : Thread nD τ).loc main_v4_1) = Cert.Spec.VG (m ((c : Thread nD τ).loc main_arg0)) (m ((c : Thread nD τ).loc main_arg1))
          (Cert.Spec.CurG (m ((c : Thread nD τ).loc main_arg2)) (m ((c : Thread nD τ).loc main_arg3)) (m ((c : Thread nD τ).loc main_arg4)) (m ((c : Thread nD τ).loc main_arg5)))
      ∧ r.2.mem ((c.tc : Thread nD τ).loc main_v4_2) = Cert.Spec.AG (m ((c : Thread nD τ).loc main_arg0)) (m ((c : Thread nD τ).loc main_arg1))
      ∧ r.2.mem ((c.tc : Thread nD τ).loc main_v4_3) = Cert.Spec.XdG (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v4_0 (by decide))).trans (W5_v4_0 m ρ c),
     (h c _ (mem_uc main_v4_1 (by decide))).trans (W5_v4_1 m ρ c),
     (h c _ (mem_uc main_v4_2 (by decide))).trans (W5_v4_2 m ρ c),
     (h c _ (mem_uc main_v4_3 (by decide))).trans (W5_v4_3 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Val

end
-- ==== Proof.Ref.lean ====
/-
  The reference program's four results, at the extended reals, are the specification's arrays of its arguments:
  the spikes, the adaptation, the potential from the input current, and the delay line shifted by one row with the
  spikes in front. Each stage of the reference is read at an index down to the arguments; what remains is the
  identification of the composed index functions with indices written by coordinates.
-/
import proofs.«112072_j23527830848088_1_alg».proof.Proof.Gen.ReferenceIdeal.Run
import proofs.«112072_j23527830848088_1_alg».proof.Proof.Gen.ReferenceIdeal.Read
import proofs.«112072_j23527830848088_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The spikes -/

/-- The reference's spike stage at an index: the comparison bit of that neuron as a number. -/
theorem v5_apply (x0 x1 : (⟨S16x8192, .f32⟩ : BufTy).Contents (Elt Ideal)) (i : S16x8192.Idx) :
    val_main_v5 (F := Ideal) x0 x1 i = Cert.Spec.spikeS (x0 i) (x1 i) := by
  rw [val_main_v5_apply, val_main_v4_apply, val_main_v3_apply, val_main_v2_apply, val_main_cst_0_apply,
    val_main_v1_apply, val_main_v0_apply, val_main_cst_apply]
  rfl

theorem ref_v5 (x0 x1 : (⟨S16x8192, .f32⟩ : BufTy).Contents (Elt Ideal)) :
    val_main_v5 (F := Ideal) x0 x1 = Cert.Spec.XG x0 x1 :=
  funext fun i => v5_apply x0 x1 i

/-! ## The adaptation -/

theorem ref_v8 (x0 x1 : (⟨S16x8192, .f32⟩ : BufTy).Contents (Elt Ideal)) :
    val_main_v8 (F := Ideal) x0 x1 = Cert.Spec.AG x0 x1 := by
  funext i
  rw [val_main_v8_apply, val_main_v7_apply, val_main_v6_apply, val_main_cst_1_apply, v5_apply]
  rfl

/-! ## The input current -/

/-- The oldest row of the delay line, as the reference's slice and reshape reach it from the product's left index. -/
theorem idx_delay (i : S16x8192.Idx) (k : Fin 8192) :
    idx_main_v9 (idx_main_v10 (lidx_main_v11 i k)) = ix3 (7 : Fin 8) (i 0) k := by
  have h0 : (i 0).val < 16 := (i 0).isLt
  have hk : k.val < 8192 := k.isLt
  funext a
  apply Fin.ext
  match a with
  | ⟨0, _⟩ => rfl
  | ⟨1, _⟩ =>
    show ((i 0).val * 8192 + k.val) / 8192 % 16 = (i 0).val
    omega
  | ⟨2, _⟩ =>
    show ((i 0).val * 8192 + k.val) % 8192 = k.val
    omega

theorem ridx_v11 (i : S16x8192.Idx) (k : Fin 8192) : ridx_main_v11 i k = ix2 k (i 1) := by
  funext a
  match a with
  | ⟨0, _⟩ => rfl
  | ⟨1, _⟩ => rfl

theorem lidx_v12 (i : S16x8192.Idx) (k : Fin 4096) : lidx_main_v12 i k = ix2 (i 0) k := by
  funext a
  match a with
  | ⟨0, _⟩ => rfl
  | ⟨1, _⟩ => rfl

theorem ridx_v12 (i : S16x8192.Idx) (k : Fin 4096) : ridx_main_v12 i k = ix2 k (i 1) := by
  funext a
  match a with
  | ⟨0, _⟩ => rfl
  | ⟨1, _⟩ => rfl

/-- The reference's current at an index: the two whole contractions. -/
theorem v13_apply (x2 : (⟨S8x16x8192, .f32⟩ : BufTy).Contents (Elt Ideal)) (x3 : (⟨S16x4096, .f32⟩ : BufTy).Contents (Elt Ideal))
    (x4 : (⟨S8192x8192, .f32⟩ : BufTy).Contents (Elt Ideal)) (x5 : (⟨S4096x8192, .f32⟩ : BufTy).Contents (Elt Ideal))
    (i : S16x8192.Idx) :
    val_main_v13 (F := Ideal) x2 x3 x4 x5 i = Cert.Spec.CurG x2 x3 x4 x5 i := by
  rw [val_main_v13_apply, val_main_v11_apply, val_main_v12_apply]
  simp only [val_main_v10_apply, val_main_v9_apply, idx_delay, ridx_v11, lidx_v12, ridx_v12]
  rfl

/-! ## The potential -/

theorem ref_v21 (x0 x1 : (⟨S16x8192, .f32⟩ : BufTy).Contents (Elt Ideal)) (x2 : (⟨S8x16x8192, .f32⟩ : BufTy).Contents (Elt Ideal))
    (x3 : (⟨S16x4096, .f32⟩ : BufTy).Contents (Elt Ideal)) (x4 : (⟨S8192x8192, .f32⟩ : BufTy).Contents (Elt Ideal))
    (x5 : (⟨S4096x8192, .f32⟩ : BufTy).Contents (Elt Ideal)) :
    val_main_v21 (F := Ideal) x0 x1 x2 x3 x4 x5 = Cert.Spec.VG x0 x1 (Cert.Spec.CurG x2 x3 x4 x5) := by
  funext i
  rw [val_main_v21_apply, val_main_v18_apply, val_main_v15_apply, val_main_v14_apply, val_main_cst_2_apply,
    val_main_v17_apply, val_main_v16_apply, val_main_cst_3_apply, v5_apply, val_main_v20_apply, val_main_v19_apply,
    val_main_cst_4_apply, v13_apply]
  rfl

/-! ## The delay line -/

theorem idx_v22 (b : Fin 16) (n : Fin 8192) : idx_main_v22 (ix3 (0 : Fin 1) b n) = ix2 b n := by
  funext a
  match a with
  | ⟨0, _⟩ => rfl
  | ⟨1, _⟩ => rfl

theorem idx_v23 (d : Fin 7) (b : Fin 16) (n : Fin 8192) :
    idx_main_v23 (ix3 d b n) = ix3 (⟨d.val, by omega⟩ : Fin 8) b n := by
  funext a
  match a with
  | ⟨0, _⟩ => rfl
  | ⟨1, _⟩ => rfl
  | ⟨2, _⟩ => rfl

theorem ref_v24 (x0 x1 : (⟨S16x8192, .f32⟩ : BufTy).Contents (Elt Ideal)) (x2 : (⟨S8x16x8192, .f32⟩ : BufTy).Contents (Elt Ideal)) :
    val_main_v24 (F := Ideal) x0 x1 x2 = Cert.Spec.XdG x0 x1 x2 := by
  funext j
  have hj : (j 0).val < 8 := (j 0).isLt
  unfold val_main_v24 Cert.Spec.XdG
  by_cases h : (j 0).val = 0
  · rw [if_pos h]
    refine (concatenate_pair_apply_left (0 : Fin S8x16x8192.rank) (val_main_v22 (F := Ideal) x0 x1)
      (val_main_v23 (F := Ideal) x2) concatenates_S1x16x8192_S7x16x8192_S8x16x8192_d0 j rfl
      (ix3 (0 : Fin 1) (j 1) (j 2)) (fun b => match b with
        | ⟨0, _⟩ => h.symm
        | ⟨1, _⟩ => rfl
        | ⟨2, _⟩ => rfl)).trans ?_
    rw [val_main_v22_apply]
    exact (congrArg (val_main_v5 (F := Ideal) x0 x1) (idx_v22 (j 1) (j 2))).trans (v5_apply x0 x1 _)
  · rw [if_neg h]
    refine (concatenate_pair_apply_right (0 : Fin S8x16x8192.rank) (val_main_v22 (F := Ideal) x0 x1)
      (val_main_v23 (F := Ideal) x2) concatenates_S1x16x8192_S7x16x8192_S8x16x8192_d0 j rfl rfl
      (ix3 (⟨(j 0).val - 1, by omega⟩ : Fin 7) (j 1) (j 2)) (fun b hb => match b, hb with
        | ⟨0, _⟩, hb => absurd rfl hb
        | ⟨1, _⟩, _ => rfl
        | ⟨2, _⟩, _ => rfl) (by show (j 0).val - 1 + 1 = (j 0).val; omega)).trans ?_
    rw [val_main_v23_apply]
    exact congrArg x2 (idx_v23 (⟨(j 0).val - 1, by omega⟩ : Fin 7) (j 1) (j 2))

end Cert.ReferenceIdeal.RefValue

end
-- ==== Proof.lean ====
/-
  One step of an adaptive-threshold spiking layer: spikes X = [V ≥ 1 + 1.8·a], adaptation ρ·a + X, input current
  Xd[7]·W_int + Xext·W_ext, potential (α·V)·(1 − X) + β·current, and the delay line shifted by one with X in front.

  The kernel computes the current in two blocked products — the first accumulates eight 1024-wide block products per
  2048-column block from zero, the second accumulates four more onto the first's result — and the rest in one
  pointwise pass; the reference computes two whole products and adds them. Over the extended reals a sum taken block
  by block, left to right, from zero is the whole sum (addition is associative and commutative there, and the bf16
  conversions in front of the products are the identity), the comparison bit read as a number is the same number
  whether widened and read signed or read unsigned, and every float constant is the same word on both sides. So the
  two programs end with equal results, index by index; no finiteness of the inputs is used.

  The three frames: each program runs to the end, faults nowhere and leaves its arguments as launched. For the two
  kernel programs this is read off one run of the whole program that follows every unscoped buffer through the two
  host operations, the three kernel regions and the copy between them; the reference's is its run with the results
  dropped. The idealization changed nothing in the kernel's text, so there is nothing to preserve.
-/
import proofs.«112072_j23527830848088_1_alg».proof.Defs
import proofs.«112072_j23527830848088_1_alg».proof.Proof.Gen.Kernel
import proofs.«112072_j23527830848088_1_alg».proof.Proof.Gen.KernelIdeal
import proofs.«112072_j23527830848088_1_alg».proof.Proof.Gen.ReferenceIdeal
import proofs.«112072_j23527830848088_1_alg».proof.Proof.Gen.Pre_finite_inputs
import proofs.«112072_j23527830848088_1_alg».proof.Proof.Gen.ReferenceIdeal.Run
import proofs.«112072_j23527830848088_1_alg».proof.Proof.Gen.ReferenceIdeal.Read
import proofs.«112072_j23527830848088_1_alg».proof.Proof.K.Run
import proofs.«112072_j23527830848088_1_alg».proof.Proof.KI.Final
import proofs.«112072_j23527830848088_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- Both idealized programs end at the same four arrays: the spikes, the potential, the adaptation, the delay line —
    each the specification's function of arguments that agree. -/
theorem algebraic : Cert.algebraic_KernelIdeal_ReferenceIdeal := by
  intro m ρ m' ρ' _ hagree
  refine ⟨fun c => Cert.Spec.XG (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Spec.VG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.Spec.CurG (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    fun c => Cert.Spec.AG (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Spec.XdG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Val.run_values m ρ, ?_⟩
  refine (θ_run Cert.ReferenceIdeal.defs _ _).mono (fun _ h c => ?_) (Cert.ReferenceIdeal.Value.run (F := Ideal) m' ρ')
  obtain ⟨h5, h21, h8, h24, hargs⟩ := h c
  obtain ⟨a0, a1, a2, a3, a4, a5⟩ := hagree c
  refine ⟨h5.trans ?_, h21.trans ?_, h8.trans ?_, h24.trans ?_, hargs⟩
  · rw [Cert.ReferenceIdeal.Read.val_main_v5_eq, Cert.ReferenceIdeal.RefValue.ref_v5, a0, a1]
  · rw [Cert.ReferenceIdeal.Read.val_main_v21_eq, Cert.ReferenceIdeal.RefValue.ref_v21, a0, a1, a2, a3, a4, a5]
  · rw [Cert.ReferenceIdeal.Read.val_main_v8_eq, Cert.ReferenceIdeal.RefValue.ref_v8, a0, a1]
  · rw [Cert.ReferenceIdeal.Read.val_main_v24_eq, Cert.ReferenceIdeal.RefValue.ref_v24, a0, a1, a2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
